-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S100000x10 : Shape := ⟨2, ![100000, 10]⟩
abbrev S100000x256 : Shape := ⟨2, ![100000, 256]⟩
abbrev S128x256 : Shape := ⟨2, ![128, 256]⟩
abbrev S128x128 : Shape := ⟨2, ![128, 128]⟩
abbrev S2x128 : Shape := ⟨2, ![2, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  main_v18

def fn {F : FTy → Type} [FloatOps F] (main_arg0 : IVec S4096x2 32) (main_arg1 : IVec S100000x10 32) (main_arg2 : FVec F S100000x256 .f32) (main_arg3 : FVec F S128x256 .f32) (main_arg4 : FVec F S128x128 .f32) (main_arg5 : FVec F S2x128 .f32) : IVec S_ 1 :=
  let main_v0 : FVec F S100000x256 .f32 := Host.absf main_arg2
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_v13 main_v16
-- ==== Kernel.lean ====
abbrev S4096x2 : Shape := ⟨2, ![4096, 2]⟩
abbrev S100000x10 : Shape := ⟨2, ![100000, 10]⟩
abbrev S100000x256 : Shape := ⟨2, ![100000, 256]⟩
abbrev S128x256 : Shape := ⟨2, ![128, 256]⟩
abbrev S128x128 : Shape := ⟨2, ![128, 128]⟩
abbrev S2x128 : Shape := ⟨2, ![2, 128]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S4096x2x1 : Shape := ⟨3, ![4096, 2, 1]⟩
abbrev S4096x2x10 : Shape := ⟨3, ![4096, 2, 10]⟩
abbrev S4096x2x10x1 : Shape := ⟨4, ![4096, 2, 10, 1]⟩
abbrev S4096x2x10x10 : Shape := ⟨4, ![4096, 2, 10, 10]⟩
abbrev S4096x2x10x10x1 : Shape := ⟨5, ![4096, 2, 10, 10, 1]⟩
abbrev S4096x2x10x10x128 : Shape := ⟨5, ![4096, 2, 10, 10, 128]⟩
abbrev S4096x2x10x128 : Shape := ⟨4, ![4096, 2, 10, 128]⟩
abbrev S4096x2x128 : Shape := ⟨3, ![4096, 2, 128]⟩
abbrev S4096x128 : Shape := ⟨2, ![4096, 128]⟩

abbrev nBuf : Space → Nat
  | .hbm => 54
  | .vmem => 8
  | .smem => 0
  | _ => 0

abbrev bufTy : (tb : Table) → Fin (tcTables nBuf tb) → BufTy
  | .hbm, ⟨0, _⟩ => ⟨S4096x2, .i32⟩
  | .hbm, ⟨1, _⟩ => ⟨S100000x10, .i32⟩
  | .hbm, ⟨2, _⟩ => ⟨S100000x256, .f32⟩
  | .hbm, ⟨3, _⟩ => ⟨S128x256, .f32⟩
  | .hbm, ⟨4, _⟩ => ⟨S128x128, .f32⟩
  | .hbm, ⟨5, _⟩ => ⟨S2x128, .f32⟩
  | .hbm, ⟨6, _⟩ => ⟨S100000x128, .f32⟩
  | .hbm, ⟨7, _⟩ => ⟨S_, .i32⟩
  | .hbm, ⟨8, _⟩ => ⟨S4096x2, .i32⟩
  | .hbm, ⟨9, _⟩ => ⟨S4096x2, .i1⟩
  | .hbm, ⟨10, _⟩ => ⟨S_, .i32⟩
  | .hbm, ⟨11, _⟩ => ⟨S4096x2, .i32⟩
  | .hbm, ⟨12, _⟩ => ⟨S4096x2, .i32⟩
  | .hbm, ⟨13, _⟩ => ⟨S4096x2, .i32⟩
  | .hbm, ⟨14, _⟩ => ⟨S4096x2x1, .i32⟩
  | .hbm, ⟨15, _⟩ => ⟨S4096x2x10, .i32⟩
  | .hbm, ⟨16, _⟩ => ⟨S_, .i32⟩
  | .hbm, ⟨17, _⟩ => ⟨S4096x2x10, .i32⟩
  | .hbm, ⟨18, _⟩ => ⟨S4096x2x10, .i1⟩
  | .hbm, ⟨19, _⟩ => ⟨S_, .i32⟩
  | .hbm, ⟨20, _⟩ => ⟨S4096x2x10, .i32⟩
  | .hbm, ⟨21, _⟩ => ⟨S4096x2x10, .i32⟩
  | .hbm, ⟨22, _⟩ => ⟨S4096x2x10, .i32⟩
  | .hbm, ⟨23, _⟩ => ⟨S4096x2x10x1, .i32⟩
  | .hbm, ⟨24, _⟩ => ⟨S4096x2x10x10, .i32⟩
  | .hbm, ⟨25, _⟩ => ⟨S_, .i32⟩
  | .hbm, ⟨26, _⟩ => ⟨S4096x2x10x10, .i32⟩
  | .hbm, ⟨27, _⟩ => ⟨S4096x2x10x10, .i1⟩
  | .hbm, ⟨28, _⟩ => ⟨S_, .i32⟩
  | .hbm, ⟨29, _⟩ => ⟨S4096x2x10x10, .i32⟩
  | .hbm, ⟨30, _⟩ => ⟨S4096x2x10x10, .i32⟩
  | .hbm, ⟨31, _⟩ => ⟨S4096x2x10x10, .i32⟩
  | .hbm, ⟨32, _⟩ => ⟨S4096x2x10x10x1, .i32⟩
  | .hbm, ⟨33, _⟩ => ⟨S4096x2x10x10x128, .f32⟩
  | .hbm, ⟨34, _⟩ => ⟨S_, .f32⟩
  | .hbm, ⟨35, _⟩ => ⟨S4096x2x10x128, .f32⟩
  | .hbm, ⟨36, _⟩ => ⟨S_, .f32⟩
  | .hbm, ⟨37, _⟩ => ⟨S4096x2x10x128, .f32⟩
  | .hbm, ⟨38, _⟩ => ⟨S4096x2x10x128, .f32⟩
  | .hbm, ⟨39, _⟩ => ⟨S_, .f32⟩
  | .hbm, ⟨40, _⟩ => ⟨S4096x2x10x128, .f32⟩
  | .hbm, ⟨41, _⟩ => ⟨S4096x2x10x128, .f32⟩
  | .hbm, ⟨42, _⟩ => ⟨S_, .f32⟩
  | .hbm, ⟨43, _⟩ => ⟨S4096x2x128, .f32⟩
  | .hbm, ⟨44, _⟩ => ⟨S_, .f32⟩
  | .hbm, ⟨45, _⟩ => ⟨S4096x2x128, .f32⟩
  | .hbm, ⟨46, _⟩ => ⟨S4096x2x128, .f32⟩
  | .hbm, ⟨47, _⟩ => ⟨S_, .f32⟩
  | .hbm, ⟨48, _⟩ => ⟨S4096x128, .f32⟩
  | .hbm, ⟨49, _⟩ => ⟨S_, .f32⟩
  | .hbm, ⟨50, _⟩ => ⟨S4096x128, .f32⟩
  | .hbm, ⟨51, _⟩ => ⟨S4096x128, .f32⟩
  | .hbm, ⟨52, _⟩ => ⟨S2x128, .f32⟩
  | .hbm, ⟨53, _⟩ => ⟨S4096x2, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S5000x128, .f32⟩
  | .local _ .vmem, ⟨4, _⟩ => ⟨S5000x128, .f32⟩
  | .local _ .vmem, ⟨5, _⟩ => ⟨S4096x128, .f32⟩
  | .local _ .vmem, ⟨6, _⟩ => ⟨S2x128, .f32⟩
  | .local _ .vmem, ⟨7, _⟩ => ⟨S4096x2, .f32⟩
  | _, _ => ⟨S4096x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x128_S5000x128_0_0 : ∀ a, (![0, 0] : Fin 2 → Nat) a + S5000x128.size a ≤ S5000x128.size a
  h_S5000x128 : 0 < S5000x128.numel
  bcast_S_S4096x2 : S_.BroadcastsInDim S4096x2 (![] : Fin 0 → Fin S4096x2.rank)
  bcast_S4096x2_S4096x2x1_0_1 : S4096x2.BroadcastsInDim S4096x2x1 (![0, 1] : Fin 2 → Fin S4096x2x1.rank)
  bcast_S_S4096x2x10 : S_.BroadcastsInDim S4096x2x10 (![] : Fin 0 → Fin S4096x2x10.rank)
  bcast_S4096x2x10_S4096x2x10x1_0_1_2 : S4096x2x10.BroadcastsInDim S4096x2x10x1 (![0, 1, 2] : Fin 3 → Fin S4096x2x10x1.rank)
  bcast_S_S4096x2x10x10 : S_.BroadcastsInDim S4096x2x10x10 (![] : Fin 0 → Fin S4096x2x10x10.rank)
  bcast_S4096x2x10x10_S4096x2x10x10x1_0_1_2_3 : S4096x2x10x10.BroadcastsInDim S4096x2x10x10x1 (![0, 1, 2, 3] : Fin 4 → Fin S4096x2x10x10x1.rank)
  reducesTo_S4096x2x10x10x128_S4096x2x10x128_d3 : S4096x2x10x10x128.ReducesTo [3] S4096x2x10x128
  h_S_ : 0 < S_.numel
  bcast_S_S4096x2x10x128 : S_.BroadcastsInDim S4096x2x10x128 (![] : Fin 0 → Fin S4096x2x10x128.rank)
  reducesTo_S4096x2x10x128_S4096x2x128_d2 : S4096x2x10x128.ReducesTo [2] S4096x2x128
  bcast_S_S4096x2x128 : S_.BroadcastsInDim S4096x2x128 (![] : Fin 0 → Fin S4096x2x128.rank)
  reducesTo_S4096x2x128_S4096x128_d1 : S4096x2x128.ReducesTo [1] S4096x128
  bcast_S_S4096x128 : S_.BroadcastsInDim S4096x128 (![] : Fin 0 → Fin S4096x128.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S4096x2_S4096x2_0_0 : ∀ a, (![0, 0] : Fin 2 → Nat) a + S4096x2.size a ≤ S4096x2.size a
  h_S4096x2 : 0 < S4096x2.numel
  dot_S5000x256_S128x256_S5000x128_1_1_0_0_n_n_wf : DotDims.WF S5000x256 S128x256 S5000x128 [1] [1] [0] [0] [] []
  gather_S100000x10_S4096x2x1_S4096x2x10_2_0_n_n_0_2_110_wf : GatherDims.WF S100000x10 S4096x2x1 S4096x2x10 [2] [0] [] [0] [] 2 ![1, 10]
  gather_S100000x10_S4096x2x10x1_S4096x2x10x10_3_0_n_n_0_3_110_wf : GatherDims.WF S100000x10 S4096x2x10x1 S4096x2x10x10 [3] [0] [] [0] [] 3 ![1, 10]
  gather_S100000x128_S4096x2x10x10x1_S4096x2x10x10x128_4_0_n_n_0_4_1128_wf : GatherDims.WF S100000x128 S4096x2x10x10x1 S4096x2x10x10x128 [4] [0] [] [0] [] 4 ![1, 128]
  dot_S2x128_S128x128_S2x128_1_0_0_1_n_n_wf : DotDims.WF S2x128 S128x128 S2x128 [1] [0] [0] [1] [] []
  dot_S4096x128_S2x128_S4096x2_1_1_0_0_n_n_wf : DotDims.WF S4096x128 S2x128 S4096x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S4096x128.size a
  hwx1_0 : ∀ i : grid1.Coords, EltTy.bits .f32 = 32 ∨ (Rect.block (s := S4096x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x2.size a ≤ S4096x2.size a
  hwx1_2 : ∀ i : grid1.Coords, EltTy.bits .f32 = 32 ∨ (Rect.block (s := S4096x2) S4096x2.size (cc1_transform_2 i) (hinb1_2 i)).WholeWords (EltTy.packing .f32)

variable [Facts₀]

def dot_S5000x256_S128x256_S5000x128_1_1_0_0_n_n : DotDims S5000x256 S128x256 S5000x128 where
  lhsContracting := [1]
  rhsContracting := [1]
  lhsNonContracting := [0]
  rhsNonContracting := [0]
  lhsBatch := []
  rhsBatch := []
  wf := dot_S5000x256_S128x256_S5000x128_1_1_0_0_n_n_wf
def gather_S100000x10_S4096x2x1_S4096x2x10_2_0_n_n_0_2_110 : GatherDims S100000x10 S4096x2x1 S4096x2x10 where
  offsetDims := [2]
  collapsedSliceDims := [0]
  operandBatchingDims := []
  startIndicesBatchingDims := []
  startIndexMap := [0]
  indexVectorDim := 2
  sliceSizes := ![1, 10]
  wf := gather_S100000x10_S4096x2x1_S4096x2x10_2_0_n_n_0_2_110_wf
def gather_S100000x10_S4096x2x10x1_S4096x2x10x10_3_0_n_n_0_3_110 : GatherDims S100000x10 S4096x2x10x1 S4096x2x10x10 where
  offsetDims := [3]
  collapsedSliceDims := [0]
  operandBatchingDims := []
  startIndicesBatchingDims := []
  startIndexMap := [0]
  indexVectorDim := 3
  sliceSizes := ![1, 10]
  wf := gather_S100000x10_S4096x2x10x1_S4096x2x10x10_3_0_n_n_0_3_110_wf
def gather_S100000x128_S4096x2x10x10x1_S4096x2x10x10x128_4_0_n_n_0_4_1128 : GatherDims S100000x128 S4096x2x10x10x1 S4096x2x10x10x128 where
  offsetDims := [4]
  collapsedSliceDims := [0]
  operandBatchingDims := []
  startIndicesBatchingDims := []
  startIndexMap := [0]
  indexVectorDim := 4
  sliceSizes := ![1, 128]
  wf := gather_S100000x128_S4096x2x10x10x1_S4096x2x10x10x128_4_0_n_n_0_4_1128_wf
def dot_S2x128_S128x128_S2x128_1_0_0_1_n_n : DotDims S2x128 S128x128 S2x128 where
  lhsContracting := [1]
  rhsContracting := [0]
  lhsNonContracting := [0]
  rhsNonContracting := [1]
  lhsBatch := []
  rhsBatch := []
  wf := dot_S2x128_S128x128_S2x128_1_0_0_1_n_n_wf
def dot_S4096x128_S2x128_S4096x2_1_1_0_0_n_n : DotDims S4096x128 S2x128 S4096x2 where
  lhsContracting := [1]
  rhsContracting := [1]
  lhsNonContracting := [0]
  rhsNonContracting := [0]
  lhsBatch := []
  rhsBatch := []
  wf := dot_S4096x128_S2x128_S4096x2_1_1_0_0_n_n_wf

abbrev win0_0 : Pipeline.Window sig grid0 :=
  Pipeline.Window.ofSpec (Memref.whole main_arg2) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S4096x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v32) S2x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S4096x2.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x2 : Shape := ⟨2, ![4096, 2]⟩
abbrev S100000x10 : Shape := ⟨2, ![100000, 10]⟩
abbrev S100000x256 : Shape := ⟨2, ![100000, 256]⟩
abbrev S128x256 : Shape := ⟨2, ![128, 256]⟩
abbrev S128x128 : Shape := ⟨2, ![128, 128]⟩
abbrev S2x128 : Shape := ⟨2, ![2, 128]⟩
abbrev S_ : Shape := ⟨0, ![]⟩
abbrev S4096x2x1 : Shape := ⟨3, ![4096, 2, 1]⟩
abbrev S4096x2x10 : Shape := ⟨3, ![4096, 2, 10]⟩
abbrev S4096x2x10x1 : Shape := ⟨4, ![4096, 2, 10, 1]⟩
abbrev S4096x2x10x10 : Shape := ⟨4, ![4096, 2, 10, 10]⟩
abbrev S4096x2x10x10x1 : Shape := ⟨5, ![4096, 2, 10, 10, 1]⟩
abbrev S4096x2x10x10x256 : Shape := ⟨5, ![4096, 2, 10, 10, 256]⟩
abbrev S4096x2x10x256 : Shape := ⟨4, ![4096, 2, 10, 256]⟩
abbrev S4096x2x10x128 : Shape := ⟨4, ![4096, 2, 10, 128]⟩
abbrev S4096x2x128 : Shape := ⟨3, ![4096, 2, 128]⟩
abbrev S4096x1x128 : Shape := ⟨3, ![4096, 1, 128]⟩
abbrev S4096x128 : Shape := ⟨2, ![4096, 128]⟩
abbrev S128x2 : Shape := ⟨2, ![128, 2]⟩

abbrev nBuf : Space → Nat
  | .hbm => 58
  | .vmem => 0
  | .smem => 0
  | _ => 0

abbrev bufTy : (tb : Table) → Fin (tcTables nBuf tb) → BufTy
  | .hbm, ⟨0, _⟩ => ⟨S4096x2, .i32⟩
  | .hbm, ⟨1, _⟩ => ⟨S100000x10, .i32⟩
  | .hbm, ⟨2, _⟩ => ⟨S100000x256, .f32⟩
  | .hbm, ⟨3, _⟩ => ⟨S128x256, .f32⟩
  | .hbm, ⟨4, _⟩ => ⟨S128x128, .f32⟩
  | .hbm, ⟨5, _⟩ => ⟨S2x128, .f32⟩
  | .hbm, ⟨6, _⟩ => ⟨S_, .i32⟩
  | .hbm, ⟨7, _⟩ => ⟨S4096x2, .i32⟩
  | .hbm, ⟨8, _⟩ => ⟨S4096x2, .i1⟩
  | .hbm, ⟨9, _⟩ => ⟨S_, .i32⟩
  | .hbm, ⟨10, _⟩ => ⟨S4096x2, .i32⟩
  | .hbm, ⟨11, _⟩ => ⟨S4096x2, .i32⟩
  | .hbm, ⟨12, _⟩ => ⟨S4096x2, .i32⟩
  | .hbm, ⟨13, _⟩ => ⟨S4096x2x1, .i32⟩
  | .hbm, ⟨14, _⟩ => ⟨S4096x2x10, .i32⟩
  | .hbm, ⟨15, _⟩ => ⟨S_, .i32⟩
  | .hbm, ⟨16, _⟩ => ⟨S4096x2x10, .i32⟩
  | .hbm, ⟨17, _⟩ => ⟨S4096x2x10, .i1⟩
  | .hbm, ⟨18, _⟩ => ⟨S_, .i32⟩
  | .hbm, ⟨19, _⟩ => ⟨S4096x2x10, .i32⟩
  | .hbm, ⟨20, _⟩ => ⟨S4096x2x10, .i32⟩
  | .hbm, ⟨21, _⟩ => ⟨S4096x2x10, .i32⟩
  | .hbm, ⟨22, _⟩ => ⟨S4096x2x10x1, .i32⟩
  | .hbm, ⟨23, _⟩ => ⟨S4096x2x10x10, .i32⟩
  | .hbm, ⟨24, _⟩ => ⟨S_, .i32⟩
  | .hbm, ⟨25, _⟩ => ⟨S4096x2x10x10, .i32⟩
  | .hbm, ⟨26, _⟩ => ⟨S4096x2x10x10, .i1⟩
  | .hbm, ⟨27, _⟩ => ⟨S_, .i32⟩
  | .hbm, ⟨28, _⟩ => ⟨S4096x2x10x10, .i32⟩
  | .hbm, ⟨29, _⟩ => ⟨S4096x2x10x10, .i32⟩
  | .hbm, ⟨30, _⟩ => ⟨S4096x2x10x10, .i32⟩
  | .hbm, ⟨31, _⟩ => ⟨S4096x2x10x10x1, .i32⟩
  | .hbm, ⟨32, _⟩ => ⟨S4096x2x10x10x256, .f32⟩
  | .hbm, ⟨33, _⟩ => ⟨S_, .f32⟩
  | .hbm, ⟨34, _⟩ => ⟨S4096x2x10x256, .f32⟩
  | .hbm, ⟨35, _⟩ => ⟨S_, .f32⟩
  | .hbm, ⟨36, _⟩ => ⟨S4096x2x10x256, .f32⟩
  | .hbm, ⟨37, _⟩ => ⟨S4096x2x10x256, .f32⟩
  | .hbm, ⟨38, _⟩ => ⟨S4096x2x10x128, .f32⟩
  | .hbm, ⟨39, _⟩ => ⟨S_, .f32⟩
  | .hbm, ⟨40, _⟩ => ⟨S4096x2x10x128, .f32⟩
  | .hbm, ⟨41, _⟩ => ⟨S4096x2x10x128, .f32⟩
  | .hbm, ⟨42, _⟩ => ⟨S_, .f32⟩
  | .hbm, ⟨43, _⟩ => ⟨S4096x2x128, .f32⟩
  | .hbm, ⟨44, _⟩ => ⟨S_, .f32⟩
  | .hbm, ⟨45, _⟩ => ⟨S4096x2x128, .f32⟩
  | .hbm, ⟨46, _⟩ => ⟨S4096x2x128, .f32⟩
  | .hbm, ⟨47, _⟩ => ⟨S4096x2x128, .f32⟩
  | .hbm, ⟨48, _⟩ => ⟨S4096x1x128, .f32⟩
  | .hbm, ⟨49, _⟩ => ⟨S4096x128, .f32⟩
  | .hbm, ⟨50, _⟩ => ⟨S4096x1x128, .f32⟩
  | .hbm, ⟨51, _⟩ => ⟨S4096x128, .f32⟩
  | .hbm, ⟨52, _⟩ => ⟨S4096x128, .f32⟩
  | .hbm, ⟨53, _⟩ => ⟨S_, .f32⟩
  | .hbm, ⟨54, _⟩ => ⟨S4096x128, .f32⟩
  | .hbm, ⟨55, _⟩ => ⟨S4096x128, .f32⟩
  | .hbm, ⟨56, _⟩ => ⟨S128x2, .f32⟩
  | .hbm, ⟨57, _⟩ => ⟨S4096x2, .f32⟩
  | _, _ => ⟨S4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  bcast_S_S4096x2 : S_.BroadcastsInDim S4096x2 (![] : Fin 0 → Fin S4096x2.rank)
  bcast_S4096x2_S4096x2x1_0_1 : S4096x2.BroadcastsInDim S4096x2x1 (![0, 1] : Fin 2 → Fin S4096x2x1.rank)
  bcast_S_S4096x2x10 : S_.BroadcastsInDim S4096x2x10 (![] : Fin 0 → Fin S4096x2x10.rank)
  bcast_S4096x2x10_S4096x2x10x1_0_1_2 : S4096x2x10.BroadcastsInDim S4096x2x10x1 (![0, 1, 2] : Fin 3 → Fin S4096x2x10x1.rank)
  bcast_S_S4096x2x10x10 : S_.BroadcastsInDim S4096x2x10x10 (![] : Fin 0 → Fin S4096x2x10x10.rank)
  bcast_S4096x2x10x10_S4096x2x10x10x1_0_1_2_3 : S4096x2x10x10.BroadcastsInDim S4096x2x10x10x1 (![0, 1, 2, 3] : Fin 4 → Fin S4096x2x10x10x1.rank)
  reducesTo_S4096x2x10x10x256_S4096x2x10x256_d3 : S4096x2x10x10x256.ReducesTo [3] S4096x2x10x256
  h_S_ : 0 < S_.numel
  bcast_S_S4096x2x10x256 : S_.BroadcastsInDim S4096x2x10x256 (![] : Fin 0 → Fin S4096x2x10x256.rank)
  bcast_S_S4096x2x10x128 : S_.BroadcastsInDim S4096x2x10x128 (![] : Fin 0 → Fin S4096x2x10x128.rank)
  reducesTo_S4096x2x10x128_S4096x2x128_d2 : S4096x2x10x128.ReducesTo [2] S4096x2x128
  bcast_S_S4096x2x128 : S_.BroadcastsInDim S4096x2x128 (![] : Fin 0 → Fin S4096x2x128.rank)
  slices_S4096x2x128_S4096x1x128_0_0_0 : S4096x2x128.Slices ![0, 0, 0] S4096x1x128
  shapeCasts_S4096x1x128_S4096x128 : S4096x1x128.ShapeCasts S4096x128
  slices_S4096x2x128_S4096x1x128_0_1_0 : S4096x2x128.Slices ![0, 1, 0] S4096x1x128
  bcast_S_S4096x128 : S_.BroadcastsInDim S4096x128 (![] : Fin 0 → Fin S4096x128.rank)
  transposes_S2x128_S128x2_1_0 : S2x128.Transposes [1, 0] S128x2
  gather_S100000x10_S4096x2x1_S4096x2x10_2_0_n_n_0_2_110_wf : GatherDims.WF S100000x10 S4096x2x1 S4096x2x10 [2] [0] [] [0] [] 2 ![1, 10]
  gather_S100000x10_S4096x2x10x1_S4096x2x10x10_3_0_n_n_0_3_110_wf : GatherDims.WF S100000x10 S4096x2x10x1 S4096x2x10x10 [3] [0] [] [0] [] 3 ![1, 10]
  gather_S100000x256_S4096x2x10x10x1_S4096x2x10x10x256_4_0_n_n_0_4_1256_wf : GatherDims.WF S100000x256 S4096x2x10x10x1 S4096x2x10x10x256 [4] [0] [] [0] [] 4 ![1, 256]
  dot_S4096x2x10x256_S128x256_S4096x2x10x128_3_1_012_0_n_n_wf : DotDims.WF S4096x2x10x256 S128x256 S4096x2x10x128 [3] [1] [0, 1, 2] [0] [] []
  dot_S4096x2x128_S128x128_S4096x2x128_2_1_01_0_n_n_wf : DotDims.WF S4096x2x128 S128x128 S4096x2x128 [2] [1] [0, 1] [0] [] []
  dot_S4096x128_S128x2_S4096x2_1_0_0_1_n_n_wf : DotDims.WF S4096x128 S128x2 S4096x2 [1] [0] [0] [1] [] []

variable [Facts₀]

def gather_S100000x10_S4096x2x1_S4096x2x10_2_0_n_n_0_2_110 : GatherDims S100000x10 S4096x2x1 S4096x2x10 where
  offsetDims := [2]
  collapsedSliceDims := [0]
  operandBatchingDims := []
  startIndicesBatchingDims := []
  startIndexMap := [0]
  indexVectorDim := 2
  sliceSizes := ![1, 10]
  wf := gather_S100000x10_S4096x2x1_S4096x2x10_2_0_n_n_0_2_110_wf
def gather_S100000x10_S4096x2x10x1_S4096x2x10x10_3_0_n_n_0_3_110 : GatherDims S100000x10 S4096x2x10x1 S4096x2x10x10 where
  offsetDims := [3]
  collapsedSliceDims := [0]
  operandBatchingDims := []
  startIndicesBatchingDims := []
  startIndexMap := [0]
  indexVectorDim := 3
  sliceSizes := ![1, 10]
  wf := gather_S100000x10_S4096x2x10x1_S4096x2x10x10_3_0_n_n_0_3_110_wf
def gather_S100000x256_S4096x2x10x10x1_S4096x2x10x10x256_4_0_n_n_0_4_1256 : GatherDims S100000x256 S4096x2x10x10x1 S4096x2x10x10x256 where
  offsetDims := [4]
  collapsedSliceDims := [0]
  operandBatchingDims := []
  startIndicesBatchingDims := []
  startIndexMap := [0]
  indexVectorDim := 4
  sliceSizes := ![1, 256]
  wf := gather_S100000x256_S4096x2x10x10x1_S4096x2x10x10x256_4_0_n_n_0_4_1256_wf
def dot_S4096x2x10x256_S128x256_S4096x2x10x128_3_1_012_0_n_n : DotDims S4096x2x10x256 S128x256 S4096x2x10x128 where
  lhsContracting := [3]
  rhsContracting := [1]
  lhsNonContracting := [0, 1, 2]
  rhsNonContracting := [0]
  lhsBatch := []
  rhsBatch := []
  wf := dot_S4096x2x10x256_S128x256_S4096x2x10x128_3_1_012_0_n_n_wf
def dot_S4096x2x128_S128x128_S4096x2x128_2_1_01_0_n_n : DotDims S4096x2x128 S128x128 S4096x2x128 where
  lhsContracting := [2]
  rhsContracting := [1]
  lhsNonContracting := [0, 1]
  rhsNonContracting := [0]
  lhsBatch := []
  rhsBatch := []
  wf := dot_S4096x2x128_S128x128_S4096x2x128_2_1_01_0_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

class Facts : Prop extends Facts₀ where

variable [Facts]
-- ==== Proof.LibDotLastAxes.lean ====
/-
  A matrix product that contracts the LAST axis of both operands — an M×K matrix against an N×K matrix, the product
  "A · Bᵀ" — read at an entry. The contraction index of such a product has one coordinate, which runs over the shared
  extent K, so the sum over the contraction index is the plain sum over `q : Fin K` of `l[p, q] * r[c, q]`, where
  (p, c) is the entry of the result. Stated for ANY dimension record with these dimension numbers (contracting axes
  [1] and [1], free axes [0] and [0], no batch axis), so that one lemma serves a kernel's block product, the same
  product over whole arrays on the host, and products of other extents.
-/
import Idealize.ShloMosaic.PureOps.Ideal.Laws
import Idealize.ShloMosaic.Lib.ValueIdx

namespace Cert.LibDotLastAxes

open Idealize.ShloMosaic Idealize.ShloMosaic.ValueIdx
open scoped BigOperators

variable {M K N : Nat}

/-- The dimension numbers of "A · Bᵀ": each operand contracts its axis 1 and keeps its axis 0; no batch axis. -/
structure LastAxes (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![M, K]⟩ ⟨2, ![N, K]⟩ ⟨2, ![M, N]⟩}

/-- One contracted axis. -/
theorem LastAxes.rank_contr (h : LastAxes d) : d.contr.rank = 1 := by
  rw [d.rank_contr, h.lc]; rfl

/-- Its extent is the operands' shared last extent. -/
theorem LastAxes.size_contr (h : LastAxes d) : d.contr.size ⟨0, by rw [h.rank_contr]; exact Nat.one_pos⟩ = K := by
  obtain ⟨lc, rc, ln, rn, lb, rb, wf⟩ := d
  obtain ⟨h1, h2, h3, h4, h5, h6⟩ := h
  dsimp only at h1 h2 h3 h4 h5 h6
  subst h1 h2 h3 h4 h5 h6
  rfl

/-- The left operand's row is the result's row. -/
theorem LastAxes.lhs_row (h : LastAxes d) (j : (⟨2, ![M, N]⟩ : Shape).Idx) (k : d.contr.Idx) :
    (d.lhsIdx j k 0).val = (j 0).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.lhsIdx
  rw [dif_neg (by simp), dif_pos (by simp)]
  rfl

/-- The left operand's column is the contraction position. -/
theorem LastAxes.lhs_col (h : LastAxes d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the result's column. -/
theorem LastAxes.rhs_row (h : LastAxes d) (j : (⟨2, ![M, N]⟩ : Shape).Idx) (k : d.contr.Idx) :
    (d.rhsIdx j k 0).val = (j 1).val := by
  obtain ⟨lc, rc, ln, rn, lb, rb, wf⟩ := d
  obtain ⟨h1, h2, h3, h4, h5, h6⟩ := h
  dsimp only at h1 h2 h3 h4 h5 h6
  subst h1 h2 h3 h4 h5 h6
  unfold DotDims.rhsIdx
  rw [dif_neg (by simp), dif_pos (by simp)]
  rfl

/-- The right operand's column is the contraction position. -/
theorem LastAxes.rhs_col (h : LastAxes d) (j : (⟨2, ![M, N]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared extent: entry (p, c) of "A · Bᵀ" is `∑ q, l[p, q] * r[c, q]`. -/
theorem LastAxes.sum_contr (h : LastAxes d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k)
      = ∑ q : Fin K, l (ix2 (j 0 : Fin M) q) * r (ix2 (j 1 : Fin N) q) := by
  rw [← Equiv.sum_comp (contrEquiv1 d K h.rank_contr h.size_contr).symm]
  refine Finset.sum_congr rfl fun q _ => ?_
  have hq := contrEquiv1_symm_val d K h.rank_contr h.size_contr q
  have el : d.lhsIdx j ((contrEquiv1 d K h.rank_contr h.size_contr).symm q) = ix2 (j 0 : Fin M) q := by
    funext a; apply Fin.ext
    match a with
    | ⟨0, _⟩ => exact h.lhs_row _ _
    | ⟨1, _⟩ => exact (h.lhs_col _ _).trans hq
  have er : d.rhsIdx j ((contrEquiv1 d K h.rank_contr h.size_contr).symm q) = ix2 (j 1 : Fin N) q := by
    funext a; apply Fin.ext
    match a with
    | ⟨0, _⟩ => exact h.rhs_row _ _
    | ⟨1, _⟩ => exact (h.rhs_col _ _).trans hq
  exact congrArg₂ (· * ·) (congrArg l el) (congrArg r er)

/-- A kernel's product into a zero accumulator, at an entry. -/
theorem LastAxes.matmul_zero_apply (h : LastAxes d) {φ₁ φ₂ : FTy} (prec : Option ContractPrecision)
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) := by
  show FloatOps.matmul d prec l r (constant ⟨2, ![M, N]⟩ .f32 0x00000000#32) (ix2 p c) = _
  rw [Ideal.matmul_constant_zero_apply]
  exact h.sum_contr l r (ix2 p c)

/-- The host's product, at an entry. -/
theorem LastAxes.dotGeneral_apply (h : LastAxes d) {φ₁ φ₂ : FTy} (prec : Option ContractPrecision)
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) := by
  show FloatOps.dotGeneral d prec _ l r (ix2 p c) = _
  rw [Ideal.dotGeneral_apply]
  exact h.sum_contr l r (ix2 p c)

end Cert.LibDotLastAxes
-- ==== Proof.EmbedRegion.lean ====
/-
  The first kernel region over the extended reals. Each of its 20 grid points multiplies a block of 5000 rows of
  the node features (5000 x 256) with the transposed layer-1 weights (128 x 256), both rounded to bf16, which over
  the extended reals changes nothing, into a zero accumulator, and writes the 5000 x 128 product back as block t of
  the embedding table. The blocks tile the table, so after the region entry (n, d) of the table is the sum over
  f of features(n, f) * weights(d, f), whatever the buffers held when the region was entered.
-/
import proofs.«181456_j30099130811051_1_alg».proof.Proof.Gen.KernelIdeal.Frame
import proofs.«181456_j30099130811051_1_alg».proof.Proof.LibDotLastAxes
import Idealize.ShloMosaic.Lib.Pipeline.Value
import Idealize.ShloMosaic.Lib.ValueIdx
import Idealize.ShloMosaic.PureOps.Ideal.Laws

set_option maxRecDepth 16384

noncomputable section

namespace Cert.KernelIdeal.EmbedRegion

open Cert.KernelIdeal Cert.KernelIdeal.Gen Idealize.ShloMosaic Idealize.ShloMosaic.TcCoe Idealize.SL.Sem
open Idealize.ShloMosaic.ValueIdx Idealize.ShloMosaic.Pipeline
open scoped BigOperators

variable (V : (c : Dev nD) → (b : Ref sig .tc) → Buf (Elt Ideal) ((c : Thread nD τ).loc b))

/-- The embedding table as one function of the features and the layer-1 weights. -/
def table (x : S100000x256.Idx → EReal) (w : S128x256.Idx → EReal) : S100000x128.Idx → EReal :=
  fun i => ∑ f : Fin 256, x (ix2 (i 0 : Fin 100000) f) * w (ix2 (i 1 : Fin 128) f)

/-- The zero offsets of a whole-buffer access, as the constant function. -/
private theorem zero_offsets : (![0, 0] : Fin 2 → Nat) = fun _ => 0 := funext fun a => by fin_cases a <;> rfl

/-- The block index maps over the grid: at point `t` the features' block and the table's block are row block `t`,
    the weights' block is the whole array, and no window moves along the column axis. -/
private theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What one grid point stores, at entry (p, q): the rounding to bf16 is the identity over the extended reals and the
    accumulator is zero, so it is the sum over f of block(p, f) * weights(q, f). -/
private theorem product_apply (x0 : Vec Ideal S5000x256 .f32) (x1 : Vec Ideal S128x256 .f32) (p : Fin 5000) (q : Fin 128) :
    k0_pay1 x0 x1 (ix2 p q) = ∑ f : Fin 256, x0 (ix2 p f) * x1 (ix2 q f) := by
  unfold k0_pay1
  rw [Cert.LibDotLastAxes.LastAxes.matmul_zero_apply ⟨rfl, rfl, rfl, rfl, rfl, rfl⟩]
  rfl

/-- If `x0` is rows `5000 n … 5000 n + 4999` of the features `x` and `x1` is all of the weights `w`, then the product
    of `x0` and `x1` at (p, q) is entry (5000 n + p, q) of the table of `x` and `w`. -/
private theorem block_product (x : S100000x256.Idx → EReal) (w : S128x256.Idx → EReal)
    (x0 : Vec Ideal S5000x256 .f32) (x1 : Vec Ideal S128x256 .f32) (n : Nat) (hn : n < 20)
    (h0 : ∀ (p : Fin 5000) (f : Fin 256), x0 (ix2 p f) = x (ix2 (⟨n * 5000 + p.val, by omega⟩ : Fin 100000) f))
    (h1 : ∀ (q : Fin 128) (f : Fin 256), x1 (ix2 q f) = w (ix2 q f))
    (p : Fin 5000) (q : Fin 128) :
    k0_pay1 x0 x1 (ix2 p q) = table x w (ix2 (⟨n * 5000 + p.val, by omega⟩ : Fin 100000) q) := by
  rw [product_apply]
  refine Finset.sum_congr rfl fun f _ => ?_
  rw [h0, h1]

/-- The features' block at point `t` is rows `5000 t … 5000 t + 4999` of the features: a block's coordinate on an
    axis is its block index times the block's extent plus the coordinate inside the block. -/
private theorem features_block (c : Dev nD) (t : Fin cfg0.N) (p : Fin 5000) (f : Fin 256) (h : t.val * 5000 + p.val < 100000) :
    (iblk0 V c 0 t : Vec Ideal S5000x256 .f32) (ix2 p f) = V c main_arg2 (ix2 (⟨t.val * 5000 + p.val, h⟩ : Fin 100000) f) := by
  obtain ⟨e0, e1, -⟩ := index_facts t
  unfold iblk0
  rw [View.read_apply]
  show V c main_arg2 (((cfg0.win 0).blk t).view.emb (ix2 p f)) = V c main_arg2 _
  refine congrArg _ ?_
  funext a; apply Fin.ext
  match a with
  | ⟨0, _⟩ => show win0_0.index t (0 : Fin 2) * 5000 + 1 * p.val = t.val * 5000 + p.val; omega
  | ⟨1, _⟩ => show win0_0.index t (1 : Fin 2) * 256 + 1 * f.val = f.val; omega

/-- The weights' block at every point is the whole array of weights. -/
private theorem weights_block (c : Dev nD) (t : Fin cfg0.N) (q : Fin 128) (f : Fin 256) :
    (iblk0 V c 1 t : Vec Ideal S128x256 .f32) (ix2 q f) = V c main_arg3 (ix2 q f) := by
  obtain ⟨-, -, e2, e3, -⟩ := index_facts t
  unfold iblk0
  rw [View.read_apply]
  show V c main_arg3 (((cfg0.win 1).blk t).view.emb (ix2 q f)) = V c main_arg3 _
  refine congrArg _ ?_
  funext a; apply Fin.ext
  match a with
  | ⟨0, _⟩ => show win0_1.index t (0 : Fin 2) * 128 + 1 * q.val = q.val; omega
  | ⟨1, _⟩ => show win0_1.index t (1 : Fin 2) * 256 + 1 * f.val = f.val; omega

/-- What point `t` writes back is block `t` of the table of the features and weights found at entry: the body's one
    store fills the whole staging buffer with the product of the two loaded blocks, and entry (p, q) of that product
    is entry (5000 t + p, q) of the table. -/
private theorem flushed_eq (c : Dev nD) (t : Fin cfg0.N) :
    (dat0 (F := Ideal) V c).flushed 2 t
      = ((cfg0.win 2).blk t).view.read (Elt Ideal) (table (V c main_arg2) (V c main_arg3)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S128x256) zero_offsets]
  funext j
  obtain ⟨p, q, rfl⟩ : ∃ (p : Fin 5000) (q : Fin 128), j = ix2 p q := ⟨j 0, j 1, eq_ix2 j⟩
  have ht : t.val < 20 := t.isLt
  obtain ⟨-, -, -, -, e4, e5⟩ := index_facts t
  refine (block_product (V c main_arg2) (V c main_arg3) (iblk0 V c 0 t) (iblk0 V c 1 t) t.val ht
    (fun p f => features_block V c t p f _) (weights_block V c t) p q).trans ?_
  rw [View.read_apply]
  refine congrArg _ ?_
  funext a; apply Fin.ext
  match a with
  | ⟨0, _⟩ => show t.val * 5000 + p.val = win0_2.index t (0 : Fin 2) * 5000 + 1 * p.val; omega
  | ⟨1, _⟩ => show q.val = win0_2.index t (1 : Fin 2) * 128 + 1 * q.val; omega

/-- An index of the table is in point `t`'s block iff each coordinate is in the block's range on its axis. -/
private theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- The blocks tile the table: row r lies in the block of point r / 5000, and the one column block is all 128 columns. -/
private theorem cover (i : S100000x128.Idx) :
    ∃ t : Fin cfg0.N, (cfg0.win 2).flush t = true ∧ i ∈ ((cfg0.win 2).blk t).view.set := by
  have h0 : (i 0).val < 100000 := (i 0).isLt
  have h1 : (i 1).val < 128 := (i 1).isLt
  have hN : cfg0.N = 20 := rfl
  have ht : (i 0).val / 5000 < cfg0.N := by rw [hN]; omega
  obtain ⟨-, -, -, -, e4, e5⟩ := index_facts ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- After the region its output array holds the table of the features and weights found at entry. -/
theorem arr_eq (c : Dev nD) :
    (dat0 (F := Ideal) V c).arrAt 2 cfg0.N = table (V c main_arg2) (V c main_arg3) :=
  (dat0 V c).arrAt_eq_of_cover 2 (table (V c main_arg2) (V c main_arg3)) (fun t _ => flushed_eq V c t) cover

end Cert.KernelIdeal.EmbedRegion

end
-- ==== Proof.ClassifyRegion.lean ====
/-
  The second kernel region over the extended reals. Its one grid point multiplies the whole 4096 x 128 array of
  pooled embeddings with the transposed 2 x 128 combined weights, both rounded to bf16, which over the extended
  reals changes nothing, into a zero accumulator, and writes the 4096 x 2 product back as the whole result. So
  after the region entry (e, c) of the result is the sum over d of pooled(e, d) * combined(c, d).
-/
import proofs.«181456_j30099130811051_1_alg».proof.Proof.Gen.KernelIdeal.Frame
import proofs.«181456_j30099130811051_1_alg».proof.Proof.LibDotLastAxes
import Idealize.ShloMosaic.Lib.Pipeline.Value
import Idealize.ShloMosaic.Lib.ValueIdx
import Idealize.ShloMosaic.PureOps.Ideal.Laws

set_option maxRecDepth 16384

noncomputable section

namespace Cert.KernelIdeal.ClassifyRegion

open Cert.KernelIdeal Cert.KernelIdeal.Gen Idealize.ShloMosaic Idealize.ShloMosaic.TcCoe Idealize.SL.Sem
open Idealize.ShloMosaic.ValueIdx Idealize.ShloMosaic.Pipeline
open scoped BigOperators

variable (V : (c : Dev nD) → (b : Ref sig .tc) → Buf (Elt Ideal) ((c : Thread nD τ).loc b))

/-- The result as one function of the pooled embeddings and the combined weights. -/
def scores (x : S4096x128.Idx → EReal) (w : S2x128.Idx → EReal) : S4096x2.Idx → EReal :=
  fun i => ∑ d : Fin 128, x (ix2 (i 0 : Fin 4096) d) * w (ix2 (i 1 : Fin 2) d)

/-- The zero offsets of a whole-buffer access, as the constant function. -/
private theorem zero_offsets : (![0, 0] : Fin 2 → Nat) = fun _ => 0 := funext fun a => by fin_cases a <;> rfl

/-- The block index maps over the one-point grid: every window's block is block (0, 0), the whole of its array. -/
private theorem index_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What the grid point stores, at entry (p, q): the reshapes keep the shape, the rounding to bf16 is the identity over
    the extended reals and the accumulator is zero, so it is the sum over d of pooled(p, d) * combined(q, d). -/
private theorem product_apply (x0 : Vec Ideal S4096x128 .f32) (x1 : Vec Ideal S2x128 .f32) (p : Fin 4096) (q : Fin 2) :
    k1_pay1 x0 x1 (ix2 p q) = ∑ d : Fin 128, x0 (ix2 p d) * x1 (ix2 q d) := by
  unfold k1_pay1
  rw [Cert.LibDotLastAxes.LastAxes.matmul_zero_apply ⟨rfl, rfl, rfl, rfl, rfl, rfl⟩]
  simp only [shapeCast_self]
  rfl

/-- If `x0` is all of the pooled embeddings `x` and `x1` is all of the combined weights `w`, the product of `x0` and
    `x1` at (p, q) is entry (p, q) of the scores of `x` and `w`. -/
private theorem block_product (x : S4096x128.Idx → EReal) (w : S2x128.Idx → EReal)
    (x0 : Vec Ideal S4096x128 .f32) (x1 : Vec Ideal S2x128 .f32)
    (h0 : ∀ (p : Fin 4096) (d : Fin 128), x0 (ix2 p d) = x (ix2 p d))
    (h1 : ∀ (q : Fin 2) (d : Fin 128), x1 (ix2 q d) = w (ix2 q d))
    (p : Fin 4096) (q : Fin 2) :
    k1_pay1 x0 x1 (ix2 p q) = scores x w (ix2 p q) := by
  rw [product_apply]
  refine Finset.sum_congr rfl fun d _ => ?_
  rw [h0, h1]

/-- The pooled embeddings' block at the grid point is the whole array: a block's coordinate on an axis is its block
    index times the block's extent plus the coordinate inside the block, and the block index is zero. -/
private theorem pooled_block (c : Dev nD) (t : Fin cfg1.N) (p : Fin 4096) (d : Fin 128) :
    (iblk1 V c 0 t : Vec Ideal S4096x128 .f32) (ix2 p d) = V c main_v31 (ix2 p d) := by
  obtain ⟨e0, e1, -⟩ := index_facts t
  unfold iblk1
  rw [View.read_apply]
  show V c main_v31 (((cfg1.win 0).blk t).view.emb (ix2 p d)) = V c main_v31 _
  refine congrArg _ ?_
  funext a; apply Fin.ext
  match a with
  | ⟨0, _⟩ => show win1_0.index t (0 : Fin 2) * 4096 + 1 * p.val = p.val; omega
  | ⟨1, _⟩ => show win1_0.index t (1 : Fin 2) * 128 + 1 * d.val = d.val; omega

/-- The combined weights' block at the grid point is the whole array. -/
private theorem combined_block (c : Dev nD) (t : Fin cfg1.N) (q : Fin 2) (d : Fin 128) :
    (iblk1 V c 1 t : Vec Ideal S2x128 .f32) (ix2 q d) = V c main_v32 (ix2 q d) := by
  obtain ⟨-, -, e2, e3, -⟩ := index_facts t
  unfold iblk1
  rw [View.read_apply]
  show V c main_v32 (((cfg1.win 1).blk t).view.emb (ix2 q d)) = V c main_v32 _
  refine congrArg _ ?_
  funext a; apply Fin.ext
  match a with
  | ⟨0, _⟩ => show win1_1.index t (0 : Fin 2) * 2 + 1 * q.val = q.val; omega
  | ⟨1, _⟩ => show win1_1.index t (1 : Fin 2) * 128 + 1 * d.val = d.val; omega

/-- What the grid point writes back is its block of the scores of the pooled embeddings and combined weights found at
    entry: the body's one store fills the whole staging buffer with the product of the two loaded arrays. -/
private theorem flushed_eq (c : Dev nD) (t : Fin cfg1.N) :
    (dat1 (F := Ideal) V c).flushed 2 t
      = ((cfg1.win 2).blk t).view.read (Elt Ideal) (scores (V c main_v31) (V c main_v32)) := by
  show (cfg1.win 2).cut (grid1.coords t) ((dat1 V c).after 2 t) = _
  rw [after1_2]
  unfold out1_2
  rw [View.canon_unit_zero zero_offsets]
  simp only [View.ld_unit_zero (S := S4096x128) zero_offsets, View.ld_unit_zero (S := S2x128) zero_offsets]
  funext j
  obtain ⟨p, q, rfl⟩ : ∃ (p : Fin 4096) (q : Fin 2), j = ix2 p q := ⟨j 0, j 1, eq_ix2 j⟩
  obtain ⟨-, -, -, -, e4, e5⟩ := index_facts t
  refine (block_product (V c main_v31) (V c main_v32) (iblk1 V c 0 t) (iblk1 V c 1 t)
    (pooled_block V c t) (combined_block V c t) p q).trans ?_
  rw [View.read_apply]
  refine congrArg _ ?_
  funext a; apply Fin.ext
  match a with
  | ⟨0, _⟩ => show p.val = win1_2.index t (0 : Fin 2) * 4096 + 1 * p.val; omega
  | ⟨1, _⟩ => show q.val = win1_2.index t (1 : Fin 2) * 2 + 1 * q.val; omega

/-- An index of the result is in point `t`'s block iff each coordinate is in the block's range on its axis. -/
private theorem mem_block (t : Fin cfg1.N) (i : S4096x2.Idx) :
    i ∈ ((cfg1.win 2).blk t).view.set ↔ ∀ a : Fin 2, win1_2.index t a * S4096x2.size a ≤ (i a).val
      ∧ (i a).val < win1_2.index t a * S4096x2.size a + S4096x2.size a := by
  show i ∈ ((View.whole main_v33).slice (win1_2.rect t)).set ↔ _
  rw [View.set_slice_whole, Rect.mem_set_unit]
  exact Iff.rfl

/-- The one block is the whole result: every index lies in the block of the grid's one point. -/
private theorem cover (i : S4096x2.Idx) :
    ∃ t : Fin cfg1.N, (cfg1.win 2).flush t = true ∧ i ∈ ((cfg1.win 2).blk t).view.set := by
  have h0 : (i 0).val < 4096 := (i 0).isLt
  have h1 : (i 1).val < 2 := (i 1).isLt
  have ht : 0 < cfg1.N := by decide
  obtain ⟨-, -, -, -, e4, e5⟩ := index_facts ⟨0, ht⟩
  refine ⟨⟨0, ht⟩, flush1_2 _, ?_⟩
  rw [mem_block]
  intro a
  match a with
  | ⟨0, _⟩ =>
    show win1_2.index ⟨0, ht⟩ (0 : Fin 2) * 4096 ≤ (i 0).val
      ∧ (i 0).val < win1_2.index ⟨0, ht⟩ (0 : Fin 2) * 4096 + 4096
    rw [e4]; omega
  | ⟨1, _⟩ =>
    show win1_2.index ⟨0, ht⟩ (1 : Fin 2) * 2 ≤ (i 1).val
      ∧ (i 1).val < win1_2.index ⟨0, ht⟩ (1 : Fin 2) * 2 + 2
    rw [e5]; omega

/-- After the region its output array holds the scores of the pooled embeddings and combined weights found at entry. -/
theorem arr_eq (c : Dev nD) :
    (dat1 (F := Ideal) V c).arrAt 2 cfg1.N = scores (V c main_v31) (V c main_v32) :=
  (dat1 V c).arrAt_eq_of_cover 2 (scores (V c main_v31) (V c main_v32)) (fun t _ => flushed_eq V c t) cover

end Cert.KernelIdeal.ClassifyRegion

end
-- ==== Proof.KernelHost.lean ====
/-
  The kernel program's host operations between and around its two kernel regions, over the extended reals, as
  named whole-array functions, and the result array after the run as their composition.

  From the edge endpoints x0 (4096 x 2 words) and the neighbour table x1 (100000 x 10 words) the program gathers
  the one-hop neighbours, wraps negative words by adding 100000, gathers the two-hop neighbours, wraps again, and
  adds a unit axis: the start words of the final gather (`startIdx`). From the embedding table T (the first
  region's output) it gathers the rows the start words name, sums over the second-hop axis from the word of 0.0
  and divides by the word of 10.0 (`layer1`); takes the maximum with the word of 0.0 (`relu`); sums over the
  neighbour axis and divides by 10.0, sums over the endpoint axis and divides by the word of 2.0 (`pooled`). The
  second region multiplies that with the product of the classifier weights and the layer-2 weights (`combined`).
-/
import proofs.«181456_j30099130811051_1_alg».proof.Proof.Gen.KernelIdeal.Frame
import proofs.«181456_j30099130811051_1_alg».proof.Proof.EmbedRegion
import proofs.«181456_j30099130811051_1_alg».proof.Proof.ClassifyRegion
import Idealize.ShloMosaic.Lib.StableHlo.Run
import Idealize.ShloMosaic.PureOps.Ideal.Laws

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

/-! ## The pieces -/

/-- A word array with its negative words wrapped by adding 100000, over the one-hop shape. -/
def hop1 (x0 : IVec S4096x2 32) (x1 : IVec S100000x10 32) : IVec S4096x2x10 32 :=
  Host.gather gather_S100000x10_S4096x2x1_S4096x2x10_2_0_n_n_0_2_110 x1
    (broadcastInDim S4096x2x1 ![0, 1] bcast_S4096x2_S4096x2x1_0_1
      (select (cmpi .slt x0 (broadcastInDim S4096x2 ![] bcast_S_S4096x2 (constantI S_ 32 0#32)))
        (addi x0 (broadcastInDim S4096x2 ![] bcast_S_S4096x2 (constantI S_ 32 100000#32))) x0))

/-- The two-hop neighbours: the neighbour table gathered at the wrapped one-hop neighbours. -/
def hop2 (x0 : IVec S4096x2 32) (x1 : IVec S100000x10 32) : IVec S4096x2x10x10 32 :=
  Host.gather gather_S100000x10_S4096x2x10x1_S4096x2x10x10_3_0_n_n_0_3_110 x1
    (broadcastInDim S4096x2x10x1 ![0, 1, 2] bcast_S4096x2x10_S4096x2x10x1_0_1_2
      (select (cmpi .slt (hop1 x0 x1) (broadcastInDim S4096x2x10 ![] bcast_S_S4096x2x10 (constantI S_ 32 0#32)))
        (addi (hop1 x0 x1) (broadcastInDim S4096x2x10 ![] bcast_S_S4096x2x10 (constantI S_ 32 100000#32)))
        (hop1 x0 x1)))

/-- The start words of the final gather: the wrapped two-hop neighbours with a unit axis added. -/
def startIdx (x0 : IVec S4096x2 32) (x1 : IVec S100000x10 32) : IVec S4096x2x10x10x1 32 :=
  broadcastInDim S4096x2x10x10x1 ![0, 1, 2, 3] bcast_S4096x2x10x10_S4096x2x10x10x1_0_1_2_3
    (select (cmpi .slt (hop2 x0 x1) (broadcastInDim S4096x2x10x10 ![] bcast_S_S4096x2x10x10 (constantI S_ 32 0#32)))
      (addi (hop2 x0 x1) (broadcastInDim S4096x2x10x10 ![] bcast_S_S4096x2x10x10 (constantI S_ 32 100000#32)))
      (hop2 x0 x1))

/-- The mean over the second-hop axis of the table's rows at the start words. -/
def layer1 (T : FVec Ideal S100000x128 .f32) (I : IVec S4096x2x10x10x1 32) : FVec Ideal S4096x2x10x128 .f32 :=
  Host.divf
    (Host.reduceAdd (F := Ideal)
      (Host.gather gather_S100000x128_S4096x2x10x10x1_S4096x2x10x10x128_4_0_n_n_0_4_1128 T I)
      (constant (F := Ideal) S_ .f32 0x00000000#32) reducesTo_S4096x2x10x10x128_S4096x2x10x128_d3 h_S_)
    (broadcastInDim S4096x2x10x128 ![] bcast_S_S4096x2x10x128 (constant (F := Ideal) S_ .f32 0x41200000#32))

/-- The maximum with zero. -/
def relu (y : FVec Ideal S4096x2x10x128 .f32) : FVec Ideal S4096x2x10x128 .f32 :=
  maximumf y (broadcastInDim S4096x2x10x128 ![] bcast_S_S4096x2x10x128 (constant (F := Ideal) S_ .f32 0x00000000#32))

/-- The mean over the neighbour axis, then the mean over the endpoint axis. -/
def pooled (y : FVec Ideal S4096x2x10x128 .f32) : FVec Ideal S4096x128 .f32 :=
  Host.divf
    (Host.reduceAdd (F := Ideal)
      (Host.divf
        (Host.reduceAdd (F := Ideal) y (constant (F := Ideal) S_ .f32 0x00000000#32)
          reducesTo_S4096x2x10x128_S4096x2x128_d2 h_S_)
        (broadcastInDim S4096x2x128 ![] bcast_S_S4096x2x128 (constant (F := Ideal) S_ .f32 0x41200000#32)))
      (constant (F := Ideal) S_ .f32 0x00000000#32) reducesTo_S4096x2x128_S4096x128_d1 h_S_)
    (broadcastInDim S4096x128 ![] bcast_S_S4096x128 (constant (F := Ideal) S_ .f32 0x40000000#32))

/-- The classifier weights times the layer-2 weights. -/
def combined (x5 : FVec Ideal S2x128 .f32) (x4 : FVec Ideal S128x128 .f32) : FVec Ideal S2x128 .f32 :=
  Host.dotGeneral dot_S2x128_S128x128_S2x128_1_0_0_1_n_n none x5 x4

/-- The program's result as one function of its six arguments. -/
def result (x0 : IVec S4096x2 32) (x1 : IVec S100000x10 32) (x2 : FVec Ideal S100000x256 .f32)
    (x3 : FVec Ideal S128x256 .f32) (x4 : FVec Ideal S128x128 .f32) (x5 : FVec Ideal S2x128 .f32) :
    S4096x2.Idx → EReal :=
  ClassifyRegion.scores (pooled (relu (layer1 (EmbedRegion.table x2 x3) (startIdx x0 x1)))) (combined x5 x4)

/-! ## Each stretch of host operations from any contents -/

section Stretches
variable (Wv : Valuation τ sig (Elt Ideal))

set_option maxHeartbeats 2000000 in
/-- The first stretch leaves the layer-1 mean of the table it finds, at the start words of the endpoints and
    neighbour table it finds. -/
theorem stretch1_v24 :
    StableHlo.after (hostOps1 (F := Ideal)) Wv (Proc.devRef .tc main_v24)
      = layer1 (Wv (Proc.devRef .tc main_v0)) (startIdx (Wv (Proc.devRef .tc main_arg0)) (Wv (Proc.devRef .tc main_arg1))) := by
  after_results_simp
  rfl

set_option maxHeartbeats 2000000 in
/-- The first stretch writes neither weight array. -/
theorem stretch1_arg4 :
    StableHlo.after (hostOps1 (F := Ideal)) Wv (Proc.devRef .tc main_arg4) = Wv (Proc.devRef .tc main_arg4) := by
  after_results_simp
set_option maxHeartbeats 2000000 in
theorem stretch1_arg5 :
    StableHlo.after (hostOps1 (F := Ideal)) Wv (Proc.devRef .tc main_arg5) = Wv (Proc.devRef .tc main_arg5) := by
  after_results_simp

/-- The second stretch takes the maximum with zero … -/
theorem stretch2_v25 :
    StableHlo.after (hostOps1_1 (F := Ideal)) Wv (Proc.devRef .tc main_v25) = relu (Wv (Proc.devRef .tc main_v24)) := by
  after_results
  rfl
/-- … and writes neither weight array. -/
theorem stretch2_arg4 :
    StableHlo.after (hostOps1_1 (F := Ideal)) Wv (Proc.devRef .tc main_arg4) = Wv (Proc.devRef .tc main_arg4) := by
  after_results
theorem stretch2_arg5 :
    StableHlo.after (hostOps1_1 (F := Ideal)) Wv (Proc.devRef .tc main_arg5) = Wv (Proc.devRef .tc main_arg5) := by
  after_results

/-- The third stretch pools what it finds … -/
theorem stretch3_v31 :
    StableHlo.after (hostOps1_2 (F := Ideal)) Wv (Proc.devRef .tc main_v31) = pooled (Wv (Proc.devRef .tc main_v25)) := by
  after_results
  rfl
/-- … and multiplies the two weight arrays it finds. -/
theorem stretch3_v32 :
    StableHlo.after (hostOps1_2 (F := Ideal)) Wv (Proc.devRef .tc main_v32)
      = combined (Wv (Proc.devRef .tc main_arg5)) (Wv (Proc.devRef .tc main_arg4)) := by
  after_results
  rfl

end Stretches

/-! ## The result array after the run -/

variable (m : (ℓ : Loc nD τ sig) → Buf (Elt Ideal) ℓ) (ρ : Dev nD → PrngReg)

/-- After the first region the table holds the embeddings of the launch features and weights. -/
theorem table_after (c : Dev nD) :
    W1 m ρ c (Proc.devRef .tc main_v0)
      = EmbedRegion.table (m ((c.tc : Thread nD τ).loc main_arg2)) (m ((c.tc : Thread nD τ).loc main_arg3)) :=
  (W1_arr m ρ c 2).trans (EmbedRegion.arr_eq (V0 m ρ) c)

/-- The last boundary's contents of the result array: the program's result of the launch arguments. -/
theorem result_after (c : Dev nD) :
    W5 m ρ c (Proc.devRef .tc main_v33)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  have h24 : W2 m ρ c (Proc.devRef .tc main_v24)
      = layer1 (EmbedRegion.table (m ((c.tc : Thread nD τ).loc main_arg2)) (m ((c.tc : Thread nD τ).loc main_arg3)))
          (startIdx (m ((c.tc : Thread nD τ).loc main_arg0)) (m ((c.tc : Thread nD τ).loc main_arg1))) := by
    refine (stretch1_v24 (W1 m ρ c)).trans ?_
    rw [table_after m ρ c, W1_of_ne m ρ c main_arg0 (by decide), W1_of_ne m ρ c main_arg1 (by decide)]
  have h25 : W3 m ρ c (Proc.devRef .tc main_v25) = relu (W2 m ρ c (Proc.devRef .tc main_v24)) :=
    stretch2_v25 (W2 m ρ c)
  have h31 : W4 m ρ c (Proc.devRef .tc main_v31) = pooled (W3 m ρ c (Proc.devRef .tc main_v25)) :=
    stretch3_v31 (W3 m ρ c)
  have h4 : W3 m ρ c (Proc.devRef .tc main_arg4) = m ((c.tc : Thread nD τ).loc main_arg4) :=
    (stretch2_arg4 (W2 m ρ c)).trans ((stretch1_arg4 (W1 m ρ c)).trans (W1_of_ne m ρ c main_arg4 (by decide)))
  have h5 : W3 m ρ c (Proc.devRef .tc main_arg5) = m ((c.tc : Thread nD τ).loc main_arg5) :=
    (stretch2_arg5 (W2 m ρ c)).trans ((stretch1_arg5 (W1 m ρ c)).trans (W1_of_ne m ρ c main_arg5 (by decide)))
  have h32 : W4 m ρ c (Proc.devRef .tc main_v32)
      = combined (m ((c.tc : Thread nD τ).loc main_arg5)) (m ((c.tc : Thread nD τ).loc main_arg4)) := by
    refine (stretch3_v32 (W3 m ρ c)).trans ?_
    rw [h4, h5]
  refine (W5_arr m ρ c 2).trans ((ClassifyRegion.arr_eq (V4 m ρ) c).trans ?_)
  show ClassifyRegion.scores (W4 m ρ c (Proc.devRef .tc main_v31)) (W4 m ρ c (Proc.devRef .tc main_v32)) = _
  rw [h31, h25, h24, h32]
  rfl

end Cert.KernelIdeal.HostValue

end
-- ==== Proof.LibHostIdx.lean ====
/-
  Host operations of a neighbourhood-averaging network read at an index over the extended reals: the sum of a
  rank-5 array over its fourth axis, of a rank-4 array over its third axis and of a rank-3 array over its second
  axis, each from a scalar initial value; and a gather of rows of a matrix at a rank-5 array of row numbers.
-/
import Idealize.ShloMosaic.PureOps.Ideal
import Idealize.ShloMosaic.PureOps.Ideal.Laws
import Idealize.ShloMosaic.Lib.ValueIdx

noncomputable section

namespace Cert.LibHostIdx

open Idealize.ShloMosaic Idealize.ShloMosaic.ValueIdx
open scoped BigOperators

/-- The sum over axis 3 of an A x B x C x D x E array from a scalar initial value: entry (a, b, c, e) is the initial
    value plus the sum over k of entry (a, b, c, k, e). -/
theorem reduceAdd_r5_a3 {A B C D E : Nat} {φ : FTy}
    (h : (⟨5, ![A, B, C, D, E]⟩ : Shape).ReducesTo [3] ⟨4, ![A, B, C, E]⟩) (hu : 0 < (⟨0, ![]⟩ : Shape).numel)
    (x : FVec Ideal ⟨5, ![A, B, C, D, E]⟩ φ) (v : (⟨0, ![]⟩ : Shape).Idx → Ideal φ)
    (a : Fin A) (b : Fin B) (c : Fin C) (e : Fin E) :
    Host.reduceAdd (F := Ideal) x v h hu (ix4 a b c e) = v ix0 + ∑ k : Fin D, x (ix5 a b c k e) := by
  -- the result has an axis, so the same shape fact also names the index with the summed coordinate put back
  have hR : (⟨5, ![A, B, C, D, E]⟩ : Shape).Reduces [3] ⟨4, ![A, B, C, E]⟩ := ⟨h.1, Nat.succ_pos _, h.2⟩
  simp only [Host.reduceAdd, Ideal.hostReduceAdd_def]
  rw [Ideal.hostReduceAdd_single h hR, eq_ix0 (Shape.Idx.first hu)]
  refine congrArg (_ + ·) (Finset.sum_congr rfl fun k _ => ?_)
  -- that index is (a, b, c, k, e): k on axis 3, the result's coordinates on the other axes in order
  refine congrArg x (funext fun i => Fin.ext ?_)
  rw [hR.lift_val]
  match i with
  | ⟨0, _⟩ => rfl
  | ⟨1, _⟩ => rfl
  | ⟨2, _⟩ => rfl
  | ⟨3, _⟩ => rfl
  | ⟨4, _⟩ => rfl

/-- The sum over axis 2 of an A x B x C x E array from a scalar initial value: entry (a, b, e) is the initial value
    plus the sum over k of entry (a, b, k, e). -/
theorem reduceAdd_r4_a2 {A B C E : Nat} {φ : FTy}
    (h : (⟨4, ![A, B, C, E]⟩ : Shape).ReducesTo [2] ⟨3, ![A, B, E]⟩) (hu : 0 < (⟨0, ![]⟩ : Shape).numel)
    (x : FVec Ideal ⟨4, ![A, B, C, E]⟩ φ) (v : (⟨0, ![]⟩ : Shape).Idx → Ideal φ)
    (a : Fin A) (b : Fin B) (e : Fin E) :
    Host.reduceAdd (F := Ideal) x v h hu (ix3 a b e) = v ix0 + ∑ k : Fin C, x (ix4 a b k e) := by
  have hR : (⟨4, ![A, B, C, E]⟩ : Shape).Reduces [2] ⟨3, ![A, B, E]⟩ := ⟨h.1, Nat.succ_pos _, h.2⟩
  simp only [Host.reduceAdd, Ideal.hostReduceAdd_def]
  rw [Ideal.hostReduceAdd_single h hR, eq_ix0 (Shape.Idx.first hu)]
  refine congrArg (_ + ·) (Finset.sum_congr rfl fun k _ => ?_)
  -- the summed index is (a, b, k, e)
  refine congrArg x (funext fun i => Fin.ext ?_)
  rw [hR.lift_val]
  match i with
  | ⟨0, _⟩ => rfl
  | ⟨1, _⟩ => rfl
  | ⟨2, _⟩ => rfl
  | ⟨3, _⟩ => rfl

/-- The sum over axis 1 of an A x B x E array from a scalar initial value: entry (a, e) is the initial value plus
    the sum over k of entry (a, k, e). -/
theorem reduceAdd_r3_a1 {A B E : Nat} {φ : FTy}
    (h : (⟨3, ![A, B, E]⟩ : Shape).ReducesTo [1] ⟨2, ![A, E]⟩) (hu : 0 < (⟨0, ![]⟩ : Shape).numel)
    (x : FVec Ideal ⟨3, ![A, B, E]⟩ φ) (v : (⟨0, ![]⟩ : Shape).Idx → Ideal φ)
    (a : Fin A) (e : Fin E) :
    Host.reduceAdd (F := Ideal) x v h hu (ix2 a e) = v ix0 + ∑ k : Fin B, x (ix3 a k e) := by
  have hR : (⟨3, ![A, B, E]⟩ : Shape).Reduces [1] ⟨2, ![A, E]⟩ := ⟨h.1, Nat.succ_pos _, h.2⟩
  simp only [Host.reduceAdd, Ideal.hostReduceAdd_def]
  rw [Ideal.hostReduceAdd_single h hR, eq_ix0 (Shape.Idx.first hu)]
  refine congrArg (_ + ·) (Finset.sum_congr rfl fun k _ => ?_)
  -- the summed index is (a, k, e)
  refine congrArg x (funext fun i => Fin.ext ?_)
  rw [hR.lift_val]
  match i with
  | ⟨0, _⟩ => rfl
  | ⟨1, _⟩ => rfl
  | ⟨2, _⟩ => rfl

section Gather
variable {N A B C K D : Nat} (d : GatherDims ⟨2, ![N, D]⟩ ⟨5, ![A, B, C, K, 1]⟩ ⟨5, ![A, B, C, K, D]⟩)
    (h1 : d.offsetDims = [4]) (h2 : d.collapsedSliceDims = [0]) (h3 : d.operandBatchingDims = [])
    (h4 : d.startIndicesBatchingDims = []) (h5 : d.startIndexMap = [0]) (h6 : d.indexVectorDim = 4)
    (h7 : d.sliceSizes = ![1, D])
include h1 h2 h3 h4 h5 h6 h7

/-- On the row axis the operand coordinate is the slice's start alone — the word at the four leading coordinates, read
    signed and clamped into [0, N - 1] —: the axis is collapsed (no offset coordinate) and there are no batching axes. -/
private theorem gather_row (idx : (⟨5, ![A, B, C, K, 1]⟩ : Shape).Idx → BitVec 32)
    (a : Fin A) (b : Fin B) (c : Fin C) (k : Fin K) (q : Fin D) :
    d.start (ix5 a b c k q) idx 0 + d.batchCoord (ix5 a b c k q) 0 + d.offCoord (ix5 a b c k q) 0
      = min (idx (ix5 a b c k 0)).toInt.toNat (N - 1) := by
  obtain ⟨od, cd, ob, sb, sm, iv, ss, wf⟩ := d
  simp only at h1 h2 h3 h4 h5 h6 h7
  subst h1 h2 h3 h4 h5 h6 h7
  rw [GatherDims.batchCoord_eq_zero _ _ _ List.not_mem_nil,
    GatherDims.offCoord_eq_zero _ _ _ (fun h => ((GatherDims.mem_sKept _ _).mp h).1 (List.mem_singleton.mpr rfl)),
    Nat.add_zero]
  unfold GatherDims.start
  rw [dif_pos (List.mem_singleton.mpr rfl)]
  -- the word is read at the result's four batch coordinates, with 0 on the index vector's axis
  refine congrArg (fun z => min (idx z).toInt.toNat (N - 1)) (funext fun i => ?_)
  match i with
  | ⟨0, _⟩ => rfl
  | ⟨1, _⟩ => rfl
  | ⟨2, _⟩ => rfl
  | ⟨3, _⟩ => rfl
  | ⟨4, _⟩ => rfl

/-- On the column axis the operand coordinate is the offset coordinate alone, the result's last coordinate: the axis
    is not in the start index map (start 0) and there are no batching axes. -/
private theorem gather_col (idx : (⟨5, ![A, B, C, K, 1]⟩ : Shape).Idx → BitVec 32)
    (j : (⟨5, ![A, B, C, K, D]⟩ : Shape).Idx) :
    d.start j idx 1 + d.batchCoord j 1 + d.offCoord j 1 = (j 4).val := by
  obtain ⟨od, cd, ob, sb, sm, iv, ss, wf⟩ := d
  simp only at h1 h2 h3 h4 h5 h6 h7
  subst h1 h2 h3 h4 h5 h6 h7
  rw [GatherDims.batchCoord_eq_zero _ _ _ List.not_mem_nil, Nat.add_zero]
  exact Nat.zero_add _

end Gather

/-- Gathering rows of an N x D matrix at an A x B x C x K x 1 array of row numbers: entry (a, b, c, k, q) of the
    result is entry q of the row named by word (a, b, c, k, 0), read signed and clamped into [0, N - 1]. -/
theorem gather_rows5 {α : Type} {N A B C K D : Nat}
    (d : GatherDims ⟨2, ![N, D]⟩ ⟨5, ![A, B, C, K, 1]⟩ ⟨5, ![A, B, C, K, D]⟩)
    (h1 : d.offsetDims = [4]) (h2 : d.collapsedSliceDims = [0]) (h3 : d.operandBatchingDims = [])
    (h4 : d.startIndicesBatchingDims = []) (h5 : d.startIndexMap = [0]) (h6 : d.indexVectorDim = 4)
    (h7 : d.sliceSizes = ![1, D])
    (x : (⟨2, ![N, D]⟩ : Shape).Idx → α) (idx : (⟨5, ![A, B, C, K, 1]⟩ : Shape).Idx → BitVec 32)
    (a : Fin A) (b : Fin B) (c : Fin C) (k : Fin K) (q : Fin D) (hN : 0 < N) :
    Host.gather d x idx (ix5 a b c k q)
      = x (ix2 ⟨min (idx (ix5 a b c k 0)).toInt.toNat (N - 1), by omega⟩ q) := by
  unfold Host.gather
  -- the operand index, axis by axis
  refine congrArg x (funext fun i => Fin.ext ?_)
  match i with
  | ⟨0, _⟩ => exact gather_row d h1 h2 h3 h4 h5 h6 h7 idx a b c k q
  | ⟨1, _⟩ => exact gather_col d h1 h2 h3 h4 h5 h6 h7 idx (ix5 a b c k q)

end Cert.LibHostIdx

end
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.SageLaw.lean ====
/-
  The algebra that joins the two programs, over the reals, and the passage from extended reals that are real numbers
  to the reals.

  Layer 1. The kernel multiplies every node's features with the layer-1 weights first and averages the products over
  a neighbourhood; the reference averages the features over the neighbourhood first and multiplies the average with
  the weights. A mean is linear and the product is linear in the features, so the two agree: the mean over j of
  (sum over f of a(j, f) b(f)) is the sum over f of (the mean over j of a(j, f)) times b(f).

  Pooling and the two last layers. The kernel averages the two endpoint embeddings h(0, .), h(1, .) first and
  multiplies the average with the product matrix Wc W2; the reference multiplies each endpoint embedding with W2,
  takes half the sum, and multiplies with Wc. Both are the sum over d and g of (h(0, d) + h(1, d)) / 2 times
  Wc(g) W2(g, d).

  Both laws need distributivity, which fails at infinities of the extended reals; the inputs are finite, so every
  entry is a real number, and the inclusion of the reals commutes with sums, products, maxima and quotients by a
  nonzero real.
-/
import Idealize.ShloMosaic.PureOps.Ideal
import Mathlib.Algebra.BigOperators.Field
import Mathlib.Algebra.BigOperators.Fin
import Mathlib.Data.EReal.Basic
import Mathlib.Tactic.Ring
import Mathlib.Tactic.NormNum

noncomputable section

namespace Cert.SageLaw

open Idealize.ShloMosaic
open scoped BigOperators

/-! ## The laws over the reals -/

/-- The mean over j of the products' sums is the sum of the means' products. -/
theorem mean_dot {J K : Type*} [Fintype J] [Fintype K] (a : J → K → ℝ) (b : K → ℝ) (n : ℝ) :
    (0 + ∑ j, ∑ f, a j f * b f) / n = ∑ f, ((0 + ∑ j, a j f) / n) * b f := by
  simp only [zero_add]
  rw [Finset.sum_comm, Finset.sum_div]
  refine Finset.sum_congr rfl fun f _ => ?_
  rw [← Finset.sum_mul]
  ring

/-- Averaging two rows and multiplying with the product matrix is multiplying each row with the second factor, halving
    the sum, and multiplying with the first factor. -/
theorem pool_dot {D G : Type*} [Fintype D] [Fintype G] (h : Fin 2 → D → ℝ) (w : G → D → ℝ) (c : G → ℝ) :
    ∑ d, ((0 + ∑ p, h p d) / 2) * ∑ g, c g * w g d
      = ∑ g, ((1 / 2 : ℝ) * ((∑ d, h 0 d * w g d) + ∑ d, h 1 d * w g d)) * c g := by
  simp only [zero_add, Fin.sum_univ_two, Finset.mul_sum]
  rw [Finset.sum_comm]
  refine Finset.sum_congr rfl fun g _ => ?_
  rw [← Finset.sum_add_distrib, Finset.mul_sum, Finset.sum_mul]
  refine Finset.sum_congr rfl fun d _ => ?_
  ring

/-! ## Real numbers among the extended reals -/

/-- The inclusion of the reals commutes with finite sums. -/
theorem coe_sum {ι : Type*} (s : Finset ι) (f : ι → ℝ) :
    ∑ i ∈ s, (f i : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- … with the maximum … -/
theorem coe_max (x y : ℝ) : max (x : EReal) (y : EReal) = ((max x y : ℝ) : EReal) :=
  (EReal.coe_strictMono.monotone.map_max).symm

/-- … and with a quotient by a nonzero real. -/
theorem div_coe (r s : ℝ) (hs : s ≠ 0) : Ideal.div (r : EReal) (s : EReal) = ((r / s : ℝ) : EReal) := by
  rw [Ideal.div_coe hs, ← EReal.coe_mul, mul_one_div]

/-! ## The words of the constants -/

/-- The word of 0.0 denotes 0. -/
theorem word_zero : Ideal.ofBits .f32 0x00000000#32 = ((0 : ℝ) : EReal) := by
  simp [Ideal.ofBits, Ideal.ieee, -EReal.coe_mul]

/-- The word of 10.0 denotes 10. -/
theorem word_ten : Ideal.ofBits .f32 0x41200000#32 = ((10 : ℝ) : EReal) := by
  simp [Ideal.ofBits, Ideal.ieee, -EReal.coe_mul]
  norm_num

/-- The word of 2.0 denotes 2. -/
theorem word_two : Ideal.ofBits .f32 0x40000000#32 = ((2 : ℝ) : EReal) := by
  simp [Ideal.ofBits, Ideal.ieee, -EReal.coe_mul]
  norm_num

/-- The word of 0.5 denotes 1/2. -/
theorem word_half : Ideal.ofBits .f32 0x3F000000#32 = ((1 / 2 : ℝ) : EReal) := by
  simp [Ideal.ofBits, Ideal.ieee, -EReal.coe_mul]
  norm_num

/-- A quotient of a real by the word of 10.0. -/
theorem div_ten (r : ℝ) : Ideal.div (r : EReal) ((10 : ℝ) : EReal) = ((r / 10 : ℝ) : EReal) :=
  div_coe r 10 (by norm_num)

/-- A quotient of a real by the word of 2.0. -/
theorem div_two (r : ℝ) : Ideal.div (r : EReal) ((2 : ℝ) : EReal) = ((r / 2 : ℝ) : EReal) :=
  div_coe r 2 (by norm_num)

end Cert.SageLaw

end
-- ==== Proof.SageSpec.lean ====
/-
  What the two programs compute, entry by entry, over the extended reals, and that the two agree on finite inputs.

  Both read, for edge e, endpoint p, neighbour k and second-hop neighbour j, one row of the node table: the row
  named by a 32-bit word, read signed and clamped into the table (`rowOf`). With x2 the node features (100000 x 256),
  x3 the layer-1 weights (128 x 256), x4 the layer-2 weights (128 x 128) and x5 the classifier weights (2 x 128):

  * the kernel first forms the embedding sum_f x2(n, f) x3(d, f) of every node, averages it over j (`kerPre`), applies
    max(., 0), averages over k (`hid`), averages over the two endpoints and multiplies with the product matrix
    sum_g x5(c, g) x4(g, d) (`kerOut`);
  * the reference averages the features over j, multiplies with x3 (`refPre`), applies max(., 0), averages over k
    (`hid`), multiplies each endpoint's row with x4, takes half the sum of the two and multiplies with x5 (`refOut`).

  Every average is a sum from the word of 0.0 divided by the word of 10.0 or 2.0. On real entries the two sides
  are the same real number: SageLaw's two laws over the reals.
-/
import Idealize.ShloMosaic.PureOps.Ideal
import Idealize.ShloMosaic.Lib.ValueIdx
import proofs.«181456_j30099130811051_1_alg».proof.Proof.SageLaw

noncomputable section

namespace Cert.SageSpec

open Idealize.ShloMosaic Idealize.ShloMosaic.ValueIdx Cert.SageLaw
open scoped BigOperators

/-- The row a start word names: the word at (e, p, k, j, 0) read signed and clamped into the 100000 rows. -/
def rowOf (I : (⟨5, ![4096, 2, 10, 10, 1]⟩ : Shape).Idx → BitVec 32) (e : Fin 4096) (p : Fin 2) (k : Fin 10)
    (j : Fin 10) : Fin 100000 :=
  ⟨min (I (ix5 e p k j 0)).toInt.toNat (100000 - 1), by omega⟩

variable (row : Fin 4096 → Fin 2 → Fin 10 → Fin 10 → Fin 100000)
  (x2 : (⟨2, ![100000, 256]⟩ : Shape).Idx → EReal) (x3 : (⟨2, ![128, 256]⟩ : Shape).Idx → EReal)
  (x4 : (⟨2, ![128, 128]⟩ : Shape).Idx → EReal) (x5 : (⟨2, ![2, 128]⟩ : Shape).Idx → EReal)

/-- The kernel's layer-1 value before max(., 0): the mean over j of the embeddings of the rows (e, p, k, j). -/
def kerPre (e : Fin 4096) (p : Fin 2) (k : Fin 10) (d : Fin 128) : EReal :=
  Ideal.div (Ideal.ofBits .f32 0x00000000#32 + ∑ j : Fin 10, ∑ f : Fin 256, x2 (ix2 (row e p k j) f) * x3 (ix2 d f))
    (Ideal.ofBits .f32 0x41200000#32)

/-- The reference's layer-1 value before max(., 0): the mean over j of the features, multiplied with the weights. -/
def refPre (e : Fin 4096) (p : Fin 2) (k : Fin 10) (d : Fin 128) : EReal :=
  ∑ f : Fin 256, Ideal.div (Ideal.ofBits .f32 0x00000000#32 + ∑ j : Fin 10, x2 (ix2 (row e p k j) f))
    (Ideal.ofBits .f32 0x41200000#32) * x3 (ix2 d f)

/-- The mean over the neighbours k of max(layer-1 value, 0). -/
def hid (pre : Fin 4096 → Fin 2 → Fin 10 → Fin 128 → EReal) (e : Fin 4096) (p : Fin 2) (d : Fin 128) : EReal :=
  Ideal.div (Ideal.ofBits .f32 0x00000000#32 + ∑ k : Fin 10, max (pre e p k d) (Ideal.ofBits .f32 0x00000000#32))
    (Ideal.ofBits .f32 0x41200000#32)

/-- The kernel's result at (e, c). -/
def kerOut (e : Fin 4096) (c : Fin 2) : EReal :=
  ∑ d : Fin 128, Ideal.div (Ideal.ofBits .f32 0x00000000#32 + ∑ p : Fin 2, hid (kerPre row x2 x3) e p d)
      (Ideal.ofBits .f32 0x40000000#32)
    * ∑ g : Fin 128, x5 (ix2 c g) * x4 (ix2 g d)

/-- The reference's result at (e, c). -/
def refOut (e : Fin 4096) (c : Fin 2) : EReal :=
  ∑ g : Fin 128, (Ideal.ofBits .f32 0x3F000000#32
      * ((∑ d : Fin 128, hid (refPre row x2 x3) e 0 d * x4 (ix2 g d)) + ∑ d : Fin 128, hid (refPre row x2 x3) e 1 d * x4 (ix2 g d)))
    * x5 (ix2 c g)

/-- On real entries the two results are the same real number. -/
theorem kerOut_eq_refOut_coe (f2 : (⟨2, ![100000, 256]⟩ : Shape).Idx → ℝ) (f3 : (⟨2, ![128, 256]⟩ : Shape).Idx → ℝ)
    (f4 : (⟨2, ![128, 128]⟩ : Shape).Idx → ℝ) (f5 : (⟨2, ![2, 128]⟩ : Shape).Idx → ℝ) (e : Fin 4096) (c : Fin 2) :
    kerOut row (fun i => (f2 i : EReal)) (fun i => (f3 i : EReal)) (fun i => (f4 i : EReal)) (fun i => (f5 i : EReal)) e c
      = refOut row (fun i => (f2 i : EReal)) (fun i => (f3 i : EReal)) (fun i => (f4 i : EReal)) (fun i => (f5 i : EReal)) e c := by
  unfold kerOut refOut hid kerPre refPre
  simp only [word_zero, word_ten, word_two, word_half, ← EReal.coe_mul, coe_sum, ← EReal.coe_add, div_ten, div_two,
    coe_max]
  refine congrArg _ ?_
  simp only [mean_dot]
  exact pool_dot _ _ _

/-- Finite inputs: every entry of the four float arrays is a real number. Then the two results agree. -/
theorem kerOut_eq_refOut (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) (e : Fin 4096) (c : Fin 2) :
    kerOut row x2 x3 x4 x5 e c = refOut row x2 x3 x4 x5 e c := by
  choose f2 hf2 using h2
  choose f3 hf3 using h3
  choose f4 hf4 using h4
  choose f5 hf5 using h5
  obtain rfl : x2 = fun i => (f2 i : EReal) := funext hf2
  obtain rfl : x3 = fun i => (f3 i : EReal) := funext hf3
  obtain rfl : x4 = fun i => (f4 i : EReal) := funext hf4
  obtain rfl : x5 = fun i => (f5 i : EReal) := funext hf5
  exact kerOut_eq_refOut_coe row f2 f3 f4 f5 e c

end Cert.SageSpec

end
-- ==== Proof.KernelValue.lean ====
/-
  The kernel program's result read at an entry: it is the kernel-side formula of the specification at the rows the
  start words name. Each host operation is read at an index — a quotient and a maximum entry by entry, a splat
  constant as its word, a sum over one axis as the initial word plus the sum over that axis's coordinate, the row
  gather as the table's row named by the start word (read signed and clamped), the two products contracting the
  last axes as sums over the shared extent, and the weights' product as the sum over the inner extent.
-/
import proofs.«181456_j30099130811051_1_alg».proof.Proof.KernelHost
import proofs.«181456_j30099130811051_1_alg».proof.Proof.LibHostIdx
import proofs.«181456_j30099130811051_1_alg».proof.Proof.LibRealFactor
import proofs.«181456_j30099130811051_1_alg».proof.Proof.SageSpec

set_option maxRecDepth 16384

noncomputable section

namespace Cert.KernelIdeal.KernelValue

open Cert.KernelIdeal Idealize.ShloMosaic Idealize.ShloMosaic.ValueIdx
open Cert.KernelIdeal.HostValue Cert.SageSpec Cert.LibHostIdx
open scoped BigOperators

/-- The host's quotient at an index divides the entries. -/
theorem divf_at {S : Shape} {φ : FTy} (a b : FVec Ideal S φ) (i : S.Idx) : Host.divf a b i = Ideal.div (a i) (b i) := rfl

/-- A scalar stretched to any shape reads the scalar everywhere. -/
theorem splat_at {α : Type} (t : Shape) (dims : Fin (⟨0, ![]⟩ : Shape).rank → Fin t.rank)
    (h : (⟨0, ![]⟩ : Shape).BroadcastsInDim t dims) (v : (⟨0, ![]⟩ : Shape).Idx → α) (j : t.Idx) :
    broadcastInDim t dims h v j = v ix0 :=
  congrArg v (eq_ix0 _)

/-- The product of the classifier weights and the layer-2 weights at (c, d). -/
theorem combined_apply (x5 : FVec Ideal S2x128 .f32) (x4 : FVec Ideal S128x128 .f32) (c : Fin 2) (d : Fin 128) :
    combined x5 x4 (ix2 c d) = ∑ g : Fin 128, x5 (ix2 c g) * x4 (ix2 g d) := by
  unfold combined
  exact Cert.Fold.dotGeneral_rows dot_S2x128_S128x128_S2x128_1_0_0_1_n_n rfl rfl rfl rfl rfl rfl none x5 x4 c d

/-- The two means at (e, d): over the neighbours k inside, over the two endpoints p outside. -/
theorem pooled_apply (y : FVec Ideal S4096x2x10x128 .f32) (e : Fin 4096) (d : Fin 128) :
    pooled y (ix2 e d)
      = Ideal.div (Ideal.ofBits .f32 0x00000000#32 + ∑ p : Fin 2,
            Ideal.div (Ideal.ofBits .f32 0x00000000#32 + ∑ k : Fin 10, y (ix4 e p k d)) (Ideal.ofBits .f32 0x41200000#32))
          (Ideal.ofBits .f32 0x40000000#32) := by
  unfold pooled
  simp only [divf_at, reduceAdd_r3_a1, reduceAdd_r4_a2, splat_at, constant_apply]

/-- The maximum with zero at an index. -/
theorem relu_apply (y : FVec Ideal S4096x2x10x128 .f32) (i : S4096x2x10x128.Idx) :
    relu y i = max (y i) (Ideal.ofBits .f32 0x00000000#32) := by
  unfold relu
  rw [maximumf_apply, splat_at, constant_apply]

/-- The layer-1 mean at (e, p, k, d): over j, the table's entry d of the row the start word (e, p, k, j) names. -/
theorem layer1_apply (T : FVec Ideal S100000x128 .f32) (I : IVec S4096x2x10x10x1 32) (e : Fin 4096) (p : Fin 2)
    (k : Fin 10) (d : Fin 128) :
    layer1 T I (ix4 e p k d)
      = Ideal.div (Ideal.ofBits .f32 0x00000000#32 + ∑ j : Fin 10, T (ix2 (rowOf I e p k j) d))
          (Ideal.ofBits .f32 0x41200000#32) := by
  unfold layer1
  rw [divf_at, reduceAdd_r5_a3, splat_at, constant_apply, constant_apply]
  refine congrArg (fun s => Ideal.div (_ + s) _) (Finset.sum_congr rfl fun j _ => ?_)
  exact gather_rows5 gather_S100000x128_S4096x2x10x10x1_S4096x2x10x10x128_4_0_n_n_0_4_1128 rfl rfl rfl rfl rfl rfl rfl
    T I e p k j d (by decide)

/-- The embedding table at (n, d). -/
theorem table_apply (x2 : FVec Ideal S100000x256 .f32) (x3 : FVec Ideal S128x256 .f32) (n : Fin 100000) (d : Fin 128) :
    EmbedRegion.table x2 x3 (ix2 n d) = ∑ f : Fin 256, x2 (ix2 n f) * x3 (ix2 d f) := rfl

/-- THE KERNEL'S RESULT AT (e, c) is the specification's kernel-side formula at the rows its start words name. -/
theorem result_apply (x0 : IVec S4096x2 32) (x1 : IVec S100000x10 32) (x2 : FVec Ideal S100000x256 .f32)
    (x3 : FVec Ideal S128x256 .f32) (x4 : FVec Ideal S128x128 .f32) (x5 : FVec Ideal S2x128 .f32) (e : Fin 4096) (c : Fin 2) :
    result x0 x1 x2 x3 x4 x5 (ix2 e c) = kerOut (rowOf (startIdx x0 x1)) x2 x3 x4 x5 e c := by
  unfold result
  show ∑ d : Fin 128, pooled (relu (layer1 (EmbedRegion.table x2 x3) (startIdx x0 x1))) (ix2 e d) * combined x5 x4 (ix2 c d) = _
  simp only [pooled_apply, relu_apply, layer1_apply, table_apply, combined_apply]
  rfl

end Cert.KernelIdeal.KernelValue

end
-- ==== Proof.RefValue.lean ====
/-
  The reference program's result read at an entry: it is the reference-side formula of the specification at the
  rows its start words name. The generated read-at-an-index lemmas give each operation at an index from its
  operands at indices they compute; here those indices are identified with the coordinates (e, p, k, j, f, d, g, c)
  stage by stage, and the row gather is read as the feature table's row named by the start word.
-/
import proofs.«181456_j30099130811051_1_alg».proof.Proof.Gen.ReferenceIdeal.Run
import proofs.«181456_j30099130811051_1_alg».proof.Proof.Gen.ReferenceIdeal.Read
import proofs.«181456_j30099130811051_1_alg».proof.Proof.LibHostIdx
import proofs.«181456_j30099130811051_1_alg».proof.Proof.SageSpec

set_option maxRecDepth 16384

noncomputable section

namespace Cert.ReferenceIdeal.RefValue

open Cert.ReferenceIdeal Cert.ReferenceIdeal.Read Idealize.ShloMosaic Idealize.ShloMosaic.ValueIdx
open Cert.SageSpec Cert.LibHostIdx
open scoped BigOperators

/-! ## The generated index functions at coordinates -/

theorem lidx38 (e : Fin 4096) (c : Fin 2) (g : Fin 128) : lidx_main_v38 (ix2 e c) g = ix2 e g := by
  funext a; match a with | ⟨0, _⟩ => rfl | ⟨1, _⟩ => rfl
theorem ridx38 (e : Fin 4096) (c : Fin 2) (g : Fin 128) : ridx_main_v38 (ix2 e c) g = ix2 g c := by
  funext a; match a with | ⟨0, _⟩ => rfl | ⟨1, _⟩ => rfl
theorem idx37 (g : Fin 128) (c : Fin 2) : idx_main_v37 (ix2 g c) = ix2 c g := by
  funext a; match a with | ⟨0, _⟩ => rfl | ⟨1, _⟩ => rfl
/-- Row e, column g of the 4096 x 128 array is entry (e, 0, g) of the 4096 x 1 x 128 one. -/
theorem idx31 (e : Fin 4096) (g : Fin 128) : idx_main_v31 (ix2 e g) = ix3 e 0 g := by
  have hg := g.isLt
  funext a
  match a with
  | ⟨0, _⟩ => exact Fin.ext (by show (e.val * 128 + g.val) / 128 = e.val; omega)
  | ⟨1, _⟩ => rfl
  | ⟨2, _⟩ => exact Fin.ext (by show (e.val * 128 + g.val) % 128 = g.val; omega)
theorem idx33 (e : Fin 4096) (g : Fin 128) : idx_main_v33 (ix2 e g) = ix3 e 0 g := by
  have hg := g.isLt
  funext a
  match a with
  | ⟨0, _⟩ => exact Fin.ext (by show (e.val * 128 + g.val) / 128 = e.val; omega)
  | ⟨1, _⟩ => rfl
  | ⟨2, _⟩ => exact Fin.ext (by show (e.val * 128 + g.val) % 128 = g.val; omega)
/-- The first slice reads endpoint 0 … -/
theorem idx30 (e : Fin 4096) (g : Fin 128) : idx_main_v30 (ix3 e 0 g) = ix3 e 0 g := by
  funext a; match a with | ⟨0, _⟩ => rfl | ⟨1, _⟩ => rfl | ⟨2, _⟩ => rfl
/-- … the second endpoint 1. -/
theorem idx32 (e : Fin 4096) (g : Fin 128) : idx_main_v32 (ix3 e 0 g) = ix3 e 1 g := by
  funext a; match a with | ⟨0, _⟩ => rfl | ⟨1, _⟩ => rfl | ⟨2, _⟩ => rfl
theorem lidx29 (e : Fin 4096) (p : Fin 2) (g d : Fin 128) : lidx_main_v29 (ix3 e p g) d = ix3 e p d := by
  funext a; match a with | ⟨0, _⟩ => rfl | ⟨1, _⟩ => rfl | ⟨2, _⟩ => rfl
theorem ridx29 (e : Fin 4096) (p : Fin 2) (g d : Fin 128) : ridx_main_v29 (ix3 e p g) d = ix2 g d := by
  funext a; match a with | ⟨0, _⟩ => rfl | ⟨1, _⟩ => rfl
theorem idx26 (e : Fin 4096) (p : Fin 2) (d : Fin 128) (k : Fin 10) : idx_main_v26 (ix3 e p d) k = ix4 e p k d := by
  funext a; match a with | ⟨0, _⟩ => rfl | ⟨1, _⟩ => rfl | ⟨2, _⟩ => rfl | ⟨3, _⟩ => rfl
theorem lidx24 (e : Fin 4096) (p : Fin 2) (k : Fin 10) (d : Fin 128) (f : Fin 256) :
    lidx_main_v24 (ix4 e p k d) f = ix4 e p k f := by
  funext a; match a with | ⟨0, _⟩ => rfl | ⟨1, _⟩ => rfl | ⟨2, _⟩ => rfl | ⟨3, _⟩ => rfl
theorem ridx24 (e : Fin 4096) (p : Fin 2) (k : Fin 10) (d : Fin 128) (f : Fin 256) :
    ridx_main_v24 (ix4 e p k d) f = ix2 d f := by
  funext a; match a with | ⟨0, _⟩ => rfl | ⟨1, _⟩ => rfl
theorem idx21 (e : Fin 4096) (p : Fin 2) (k : Fin 10) (f : Fin 256) (j : Fin 10) :
    idx_main_v21 (ix4 e p k f) j = ix5 e p k j f := by
  funext a; match a with | ⟨0, _⟩ => rfl | ⟨1, _⟩ => rfl | ⟨2, _⟩ => rfl | ⟨3, _⟩ => rfl | ⟨4, _⟩ => rfl

/-! ## The stages at coordinates -/

variable (x0 : (⟨S4096x2, .i32⟩ : BufTy).Contents (Elt Ideal)) (x1 : (⟨S100000x10, .i32⟩ : BufTy).Contents (Elt Ideal))
  (x2 : (⟨S100000x256, .f32⟩ : BufTy).Contents (Elt Ideal)) (x3 : (⟨S128x256, .f32⟩ : BufTy).Contents (Elt Ideal))
  (x4 : (⟨S128x128, .f32⟩ : BufTy).Contents (Elt Ideal)) (x5 : (⟨S2x128, .f32⟩ : BufTy).Contents (Elt Ideal))

/-- The gathered features at (e, p, k, j, f): entry f of the feature row the start word (e, p, k, j) names. -/
theorem v20_at (e : Fin 4096) (p : Fin 2) (k : Fin 10) (j : Fin 10) (f : Fin 256) :
    val_main_v20 (F := Ideal) x0 x1 x2 (ix5 e p k j f) = x2 (ix2 (rowOf (val_main_v19 (F := Ideal) x0 x1) e p k j) f) := by
  unfold val_main_v20
  exact gather_rows5 gather_S100000x256_S4096x2x10x10x1_S4096x2x10x10x256_4_0_n_n_0_4_1256 rfl rfl rfl rfl rfl rfl rfl
    x2 (val_main_v19 (F := Ideal) x0 x1) e p k j f (by decide)

/-- The layer-1 value before the maximum at (e, p, k, d) is the specification's. -/
theorem v24_at (e : Fin 4096) (p : Fin 2) (k : Fin 10) (d : Fin 128) :
    val_main_v24 (F := Ideal) x0 x1 x2 x3 (ix4 e p k d) = refPre (rowOf (val_main_v19 (F := Ideal) x0 x1)) x2 x3 e p k d := by
  rw [val_main_v24_apply]
  unfold refPre
  refine Finset.sum_congr rfl fun f _ => ?_
  rw [lidx24, ridx24, val_main_v23_apply, val_main_v22_apply, val_main_cst_5_apply, val_main_v21_apply, val_main_cst_apply]
  simp only [Ideal.hostDivf_def, Ideal.ofBits_def]
  refine congrArg (fun s => Ideal.div (_ + s) _ * _) (Finset.sum_congr rfl fun j _ => ?_)
  rw [idx21]
  exact v20_at x0 x1 x2 e p k j f

/-- The mean over the neighbours of the maximum with zero at (e, p, d) is the specification's. -/
theorem v28_at (e : Fin 4096) (p : Fin 2) (d : Fin 128) :
    val_main_v28 (F := Ideal) x0 x1 x2 x3 (ix3 e p d) = hid (refPre (rowOf (val_main_v19 (F := Ideal) x0 x1)) x2 x3) e p d := by
  rw [val_main_v28_apply, val_main_v27_apply, val_main_cst_7_apply, val_main_v26_apply, val_main_cst_6_apply]
  unfold hid
  simp only [Ideal.hostDivf_def, Ideal.ofBits_def]
  refine congrArg (fun s => Ideal.div (_ + s) _) (Finset.sum_congr rfl fun k _ => ?_)
  rw [idx26, val_main_v25_apply, val_main_call0_v0_apply, val_main_call0_cst_apply, v24_at]
  simp only [Ideal.maximumf_def, Ideal.ofBits_def]

/-- Endpoint p's row times the layer-2 weights at (e, p, g). -/
theorem v29_at (e : Fin 4096) (p : Fin 2) (g : Fin 128) :
    val_main_v29 (F := Ideal) x0 x1 x2 x3 x4 (ix3 e p g)
      = ∑ d : Fin 128, hid (refPre (rowOf (val_main_v19 (F := Ideal) x0 x1)) x2 x3) e p d * x4 (ix2 g d) := by
  rw [val_main_v29_apply]
  refine Finset.sum_congr rfl fun d _ => ?_
  rw [lidx29, ridx29, v28_at]

/-- THE REFERENCE'S RESULT AT (e, c) is the specification's reference-side formula at the rows its start words name. -/
theorem result_apply (e : Fin 4096) (c : Fin 2) :
    val_main_v38 (F := Ideal) x0 x1 x2 x3 x4 x5 (ix2 e c)
      = refOut (rowOf (val_main_v19 (F := Ideal) x0 x1)) x2 x3 x4 x5 e c := by
  rw [val_main_v38_apply]
  unfold refOut
  refine Finset.sum_congr rfl fun g _ => ?_
  rw [lidx38, ridx38, val_main_v37_apply, idx37, val_main_v36_apply, val_main_v35_apply, val_main_cst_8_apply,
    val_main_v34_apply, val_main_v31_apply, idx31, val_main_v30_apply, idx30, val_main_v33_apply, idx33,
    val_main_v32_apply, idx32, v29_at, v29_at]
  simp only [Ideal.mulf_def, Ideal.addf_def, Ideal.ofBits_def]

end Cert.ReferenceIdeal.RefValue

end
-- ==== Proof.FiniteInputs.lean ====
/-
  The precondition read back: it says of each of the four float inputs that every entry's absolute value is below
  the word of +infinity, and is the conjunction of the four; so every entry of each is a real number (neither
  infinity), which is what the algebra between the two programs needs.
-/
import proofs.«181456_j30099130811051_1_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Cert.Pre_finite_inputs

/-- The word of +infinity is the top element. -/
theorem word_inf : Ideal.ofBits .f32 0x7F800000#32 = (⊤ : EReal) := by
  simp [Ideal.ofBits, Ideal.ieee]

/-- An extended real whose absolute value is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison "less than" is the bit 1 exactly when the first is below the second. -/
theorem cmp_olt_eq_one (x y : EReal) (h : Ideal.cmp .olt x y = 1#1) : x < y := by
  unfold Ideal.cmp at h
  by_contra hn
  simp [hn] at h

instance : Subsingleton S_.Idx := ⟨fun a b => funext fun d => d.elim0⟩

variable [Facts]

/-- One conjunct of the precondition: every entry of the array is a real number. -/
theorem real_of_all {S : Shape} {axes : List (Fin S.rank)} (a : FVec Ideal S .f32)
    (hb : S_.BroadcastsInDim S (![] : Fin 0 → Fin S.rank)) (hr : S.ReducesTo axes S_) (hu : 0 < S_.numel)
    (h : Host.reduce IntOp.andi (cmpf .olt (Host.absf a) (broadcastInDim S ![] hb (constant (F := Ideal) S_ .f32 0x7F800000#32)))
        (constantI S_ 1 1#1) hr hu ix0 = 1#1) (i : S.Idx) : ∃ r : ℝ, a i = (r : EReal) := by
  have hi := Host.reduce_andi_all _ _ hr hu ix0 h i
  refine real_of_abs_lt_top (a i) ?_
  have h' : max (a i) (-a i) < Ideal.ofBits .f32 0x7F800000#32 := cmp_olt_eq_one _ _ hi
  rwa [word_inf] at h'

/-- THE PRECONDITION gives: every entry of the features and of the three weight arrays is a real number. -/
theorem real_inputs (a0 : IVec S4096x2 32) (a1 : IVec S100000x10 32) (a2 : FVec Ideal S100000x256 .f32)
    (a3 : FVec Ideal S128x256 .f32) (a4 : FVec Ideal S128x128 .f32) (a5 : FVec Ideal S2x128 .f32)
    (h : fn (F := Ideal) a0 a1 a2 a3 a4 a5 = fun _ => 1#1) :
    (∀ i, ∃ r : ℝ, a2 i = (r : EReal)) ∧ (∀ i, ∃ r : ℝ, a3 i = (r : EReal)) ∧ (∀ i, ∃ r : ℝ, a4 i = (r : EReal))
      ∧ (∀ i, ∃ r : ℝ, a5 i = (r : EReal)) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all a2 _ _ _ h1, real_of_all a3 _ _ _ h2, real_of_all a4 _ _ _ h3, real_of_all a5 _ _ _ h4⟩

end Cert.FiniteInputs

end
-- ==== Proof.lean ====
/-
  The certificate of the claim: a two-layer neighbourhood-averaging encoder over 4096 edges, the kernel against its
  reference, equal over the extended reals on finite inputs.

  The kernel forms every node's embedding features · W1ᵀ once, in a first kernel region over 20 row blocks, then on
  the host gathers the embeddings of the two-hop neighbours, averages them, applies max(., 0), averages over the
  neighbours and the two endpoints, and in a second kernel region multiplies the pooled embedding with (Wc W2)ᵀ. The
  reference gathers the raw features, averages, multiplies with W1ᵀ, applies max(., 0), averages over the neighbours,
  multiplies with W2ᵀ, takes half the sum of the two endpoints and multiplies with Wcᵀ. Both read the same rows:
  their start words are the same function of the endpoint and neighbour arrays, read signed and clamped into the
  table by the gather. The mean over the second hop commutes with the first product, and the pooling and the
  product Wc W2 rearrange the last two products: both by linearity, which over the extended reals needs every
  entry to be a real number; the precondition gives that.

  The three frames: the two kernel programs' are the generated frame certificates; the reference's is its
  generated run with the result dropped. No operation of the kernel was rewritten when it was idealized, so the
  idealization claim is trivial.
-/
import proofs.«181456_j30099130811051_1_alg».proof.Defs
import proofs.«181456_j30099130811051_1_alg».proof.Proof.Gen.Kernel
import proofs.«181456_j30099130811051_1_alg».proof.Proof.Gen.Kernel.Skeleton
import proofs.«181456_j30099130811051_1_alg».proof.Proof.Gen.Kernel.Launch
import proofs.«181456_j30099130811051_1_alg».proof.Proof.Gen.Kernel.Points
import proofs.«181456_j30099130811051_1_alg».proof.Proof.Gen.Kernel.Frame
import proofs.«181456_j30099130811051_1_alg».proof.Proof.Gen.KernelIdeal
import proofs.«181456_j30099130811051_1_alg».proof.Proof.Gen.KernelIdeal.Skeleton
import proofs.«181456_j30099130811051_1_alg».proof.Proof.Gen.KernelIdeal.Launch
import proofs.«181456_j30099130811051_1_alg».proof.Proof.Gen.KernelIdeal.Points
import proofs.«181456_j30099130811051_1_alg».proof.Proof.Gen.KernelIdeal.Frame
import proofs.«181456_j30099130811051_1_alg».proof.Proof.Gen.ReferenceIdeal
import proofs.«181456_j30099130811051_1_alg».proof.Proof.Gen.ReferenceIdeal.Run
import proofs.«181456_j30099130811051_1_alg».proof.Proof.Gen.ReferenceIdeal.Read
import proofs.«181456_j30099130811051_1_alg».proof.Proof.Gen.Pre_finite_inputs
import proofs.«181456_j30099130811051_1_alg».proof.Proof.KernelRun
import proofs.«181456_j30099130811051_1_alg».proof.Proof.KernelValue
import proofs.«181456_j30099130811051_1_alg».proof.Proof.RefValue
import proofs.«181456_j30099130811051_1_alg».proof.Proof.FiniteInputs
import Idealize.ShloMosaic.Adequacy
import Idealize.ShloMosaic.Init

set_option maxRecDepth 16384

noncomputable section

namespace Cert.Proof

open Idealize.ShloMosaic Idealize.ShloMosaic.ValueIdx Idealize.SL.Sem

/-- The two programs compute their start words by the same operations of the endpoint and neighbour arrays. -/
theorem startIdx_eq [Cert.KernelIdeal.Facts] [Cert.ReferenceIdeal.Facts]
    (x0 : IVec Cert.KernelIdeal.S4096x2 32) (x1 : IVec Cert.KernelIdeal.S100000x10 32) :
    Cert.KernelIdeal.HostValue.startIdx x0 x1 = Cert.ReferenceIdeal.Read.val_main_v19 (F := Ideal) x0 x1 := rfl

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end; the kernel's result array holds its result function of the launch arguments, the reference's
    the same array: entry by entry both are the specification's formulas at the same rows, equal on real entries. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.HostValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostValue.result_after m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h2, h3, h4, h5⟩ := Cert.FiniteInputs.real_inputs _ _ _ _ _ _ (hpre c)
    rw [Cert.ReferenceIdeal.Read.val_main_v38_eq, (hagree c).1, (hagree c).2.1, (hagree c).2.2.1, (hagree c).2.2.2.1,
      (hagree c).2.2.2.2.1, (hagree c).2.2.2.2.2]
    dsimp only
    funext i
    obtain ⟨e, q, rfl⟩ : ∃ (e : Fin 4096) (q : Fin 2), i = ix2 e q := ⟨i 0, i 1, eq_ix2 i⟩
    rw [Cert.ReferenceIdeal.RefValue.result_apply, Cert.KernelIdeal.KernelValue.result_apply, startIdx_eq]
    exact (Cert.SageSpec.kerOut_eq_refOut _ _ _ _ _ h2 h3 h4 h5 e q).symm

theorem claim : Cert.Claim :=
  ⟨Cert.Kernel.Gen.facts, Cert.KernelIdeal.Gen.facts, Cert.ReferenceIdeal.Gen.facts, Cert.Pre_finite_inputs.Gen.facts,
    @frame_kernel Cert.Kernel.Gen.facts Cert.Pre_finite_inputs.Gen.facts,
    @frame_kernelIdeal Cert.KernelIdeal.Gen.facts Cert.Pre_finite_inputs.Gen.facts,
    @frame_referenceIdeal Cert.ReferenceIdeal.Gen.facts Cert.Pre_finite_inputs.Gen.facts,
    preserves,
    @algebraic Cert.KernelIdeal.Gen.facts Cert.ReferenceIdeal.Gen.facts Cert.Pre_finite_inputs.Gen.facts⟩

end Cert.Proof

end
